-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S512x256 : Shape := ⟨2, ![512, 256]⟩
abbrev S256x512 : Shape := ⟨2, ![256, 512]⟩
abbrev S256 : Shape := ⟨1, ![256]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S32x4096x256 .f32) (main_arg1 : FVec F S512x256 .f32) (main_arg2 : FVec F S256x512 .f32) (main_arg3 : FVec F S256 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S32x4096x256 : Shape := ⟨3, ![32, 4096, 256]⟩
abbrev S512x256 : Shape := ⟨2, ![512, 256]⟩
abbrev S256x512 : Shape := ⟨2, ![256, 512]⟩
abbrev S256 : Shape := ⟨1, ![256]⟩
abbrev S131072x256 : Shape := ⟨2, ![131072, 256]⟩
abbrev S1x256 : Shape := ⟨2, ![1, 256]⟩
abbrev S131072x512 : Shape := ⟨2, ![131072, 512]⟩
abbrev S2048x256 : Shape := ⟨2, ![2048, 256]⟩
abbrev S2048x512 : Shape := ⟨2, ![2048, 512]⟩
abbrev S2048 : Shape := ⟨1, ![2048]⟩
abbrev S2048x1 : Shape := ⟨2, ![2048, 1]⟩
abbrev S256x256 : Shape := ⟨2, ![256, 256]⟩
abbrev S32x4096x512 : Shape := ⟨3, ![32, 4096, 512]⟩

abbrev nBuf : Space → Nat
  | .hbm => 12
  | .vmem => 9
  | .smem => 0
  | _ => 0

abbrev bufTy : (tb : Table) → Fin (tcTables nBuf tb) → BufTy
  | .hbm, ⟨0, _⟩ => ⟨S32x4096x256, .f32⟩
  | .hbm, ⟨1, _⟩ => ⟨S512x256, .f32⟩
  | .hbm, ⟨2, _⟩ => ⟨S256x512, .f32⟩
  | .hbm, ⟨3, _⟩ => ⟨S256, .f32⟩
  | .hbm, ⟨4, _⟩ => ⟨S131072x256, .f32⟩
  | .hbm, ⟨5, _⟩ => ⟨S512x256, .bf16⟩
  | .hbm, ⟨6, _⟩ => ⟨S256x512, .bf16⟩
  | .hbm, ⟨7, _⟩ => ⟨S1x256, .f32⟩
  | .hbm, ⟨8, _⟩ => ⟨S131072x256, .f32⟩
  | .hbm, ⟨9, _⟩ => ⟨S131072x512, .f32⟩
  | .hbm, ⟨10, _⟩ => ⟨S32x4096x256, .f32⟩
  | .hbm, ⟨11, _⟩ => ⟨S32x4096x512, .f32⟩
  | .local _ .vmem, ⟨0, _⟩ => ⟨S2048x256, .f32⟩
  | .local _ .vmem, ⟨1, _⟩ => ⟨S2048x256, .f32⟩
  | .local _ .vmem, ⟨2, _⟩ => ⟨S512x256, .bf16⟩
  | .local _ .vmem, ⟨3, _⟩ => ⟨S256x512, .bf16⟩
  | .local _ .vmem, ⟨4, _⟩ => ⟨S1x256, .f32⟩
  | .local _ .vmem, ⟨5, _⟩ => ⟨S2048x256, .f32⟩
  | .local _ .vmem, ⟨6, _⟩ => ⟨S2048x256, .f32⟩
  | .local _ .vmem, ⟨7, _⟩ => ⟨S2048x512, .f32⟩
  | .local _ .vmem, ⟨8, _⟩ => ⟨S2048x512, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x4096x256_S131072x256 : S32x4096x256.ShapeCasts S131072x256
  bitsLt_bf16_f32 : FTy.bits .bf16 < FTy.bits .f32
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S2048x512_S2048 : S2048x512.Reduces [1] S2048
  shapeCasts_S2048_S2048x1 : S2048.ShapeCasts S2048x1
  broadcasts_S2048x1_S2048x512 : S2048x1.Broadcasts S2048x512
  inb_S2048x512_S2048x512_0_0 : ∀ a, (![0, 0] : Fin 2 → Nat) a + S2048x512.size a ≤ S2048x512.size a
  h_S2048x512 : 0 < S2048x512.numel
  slices_S256x512_o0_0_S256x256 : S256x512.Slices ![0, 0] S256x256
  slices_S256x512_o0_256_S256x256 : S256x512.Slices ![0, 256] S256x256
  broadcasts_S1x256_S2048x256 : S1x256.Broadcasts S2048x256
  shapeCasts_S131072x256_S32x4096x256 : S131072x256.ShapeCasts S32x4096x256
  shapeCasts_S131072x512_S32x4096x512 : S131072x512.ShapeCasts S32x4096x512
  dot_S2048x256_S512x256_S2048x512_1_1_0_0_n_n_wf : DotDims.WF S2048x256 S512x256 S2048x512 [1] [1] [0] [0] [] []
  dot_S2048x512_S512x256_S2048x256_1_0_0_1_n_n_wf : DotDims.WF S2048x512 S512x256 S2048x256 [1] [0] [0] [1] [] []
  dot_S2048x256_S256x256_S2048x256_1_1_0_0_n_n_wf : DotDims.WF S2048x256 S256x256 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S131072x256.size a
  hwx0_4 : ∀ i : grid0.Coords, EltTy.bits .f32 = 32 ∨ (Rect.block (s := S131072x256) S2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S131072x512.size a
  hwx0_5 : ∀ i : grid0.Coords, EltTy.bits .f32 = 32 ∨ (Rect.block (s := S131072x512) S2048x512.size (cc0_transform_5 i) (hinb0_5 i)).WholeWords (EltTy.packing .f32)

variable [Facts₀]

def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S2048x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x4096x256 : Shape := ⟨3, ![32, 4096, 256]⟩
abbrev S512x256 : Shape := ⟨2, ![512, 256]⟩
abbrev S256x512 : Shape := ⟨2, ![256, 512]⟩
abbrev S256 : Shape := ⟨1, ![256]⟩
abbrev S32x4096x512 : Shape := ⟨3, ![32, 4096, 512]⟩
abbrev S_ : Shape := ⟨0, ![]⟩
abbrev S32x4096 : Shape := ⟨2, ![32, 4096]⟩
abbrev S32x4096x1 : Shape := ⟨3, ![32, 4096, 1]⟩
abbrev S256x256 : Shape := ⟨2, ![256, 256]⟩
abbrev S1x1x256 : Shape := ⟨3, ![1, 1, 256]⟩

abbrev nBuf : Space → Nat
  | .hbm => 38
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S512x256, .f32⟩
  | .hbm, ⟨2, _⟩ => ⟨S256x512, .f32⟩
  | .hbm, ⟨3, _⟩ => ⟨S256, .f32⟩
  | .hbm, ⟨4, _⟩ => ⟨S32x4096x512, .f32⟩
  | .hbm, ⟨5, _⟩ => ⟨S_, .f32⟩
  | .hbm, ⟨6, _⟩ => ⟨S32x4096, .f32⟩
  | .hbm, ⟨7, _⟩ => ⟨S_, .f32⟩
  | .hbm, ⟨8, _⟩ => ⟨S32x4096, .f32⟩
  | .hbm, ⟨9, _⟩ => ⟨S32x4096, .f32⟩
  | .hbm, ⟨10, _⟩ => ⟨S32x4096x1, .f32⟩
  | .hbm, ⟨11, _⟩ => ⟨S32x4096x512, .f32⟩
  | .hbm, ⟨12, _⟩ => ⟨S32x4096x512, .f32⟩
  | .hbm, ⟨13, _⟩ => ⟨S32x4096x512, .f32⟩
  | .hbm, ⟨14, _⟩ => ⟨S_, .f32⟩
  | .hbm, ⟨15, _⟩ => ⟨S32x4096, .f32⟩
  | .hbm, ⟨16, _⟩ => ⟨S32x4096x1, .f32⟩
  | .hbm, ⟨17, _⟩ => ⟨S32x4096x512, .f32⟩
  | .hbm, ⟨18, _⟩ => ⟨S32x4096x512, .f32⟩
  | .hbm, ⟨19, _⟩ => ⟨S32x4096x256, .f32⟩
  | .hbm, ⟨20, _⟩ => ⟨S256x256, .f32⟩
  | .hbm, ⟨21, _⟩ => ⟨S256x256, .f32⟩
  | .hbm, ⟨22, _⟩ => ⟨S32x4096x256, .f32⟩
  | .hbm, ⟨23, _⟩ => ⟨S32x4096x256, .f32⟩
  | .hbm, ⟨24, _⟩ => ⟨S32x4096x256, .f32⟩
  | .hbm, ⟨25, _⟩ => ⟨S1x1x256, .f32⟩
  | .hbm, ⟨26, _⟩ => ⟨S32x4096x256, .f32⟩
  | .hbm, ⟨27, _⟩ => ⟨S32x4096x256, .f32⟩
  | .hbm, ⟨28, _⟩ => ⟨S32x4096x256, .f32⟩
  | .hbm, ⟨29, _⟩ => ⟨S32x4096x256, .f32⟩
  | .hbm, ⟨30, _⟩ => ⟨S_, .f32⟩
  | .hbm, ⟨31, _⟩ => ⟨S32x4096x256, .f32⟩
  | .hbm, ⟨32, _⟩ => ⟨S32x4096x256, .f32⟩
  | .hbm, ⟨33, _⟩ => ⟨S_, .f32⟩
  | .hbm, ⟨34, _⟩ => ⟨S32x4096x256, .f32⟩
  | .hbm, ⟨35, _⟩ => ⟨S32x4096x256, .f32⟩
  | .hbm, ⟨36, _⟩ => ⟨S32x4096x256, .f32⟩
  | .hbm, ⟨37, _⟩ => ⟨S32x4096x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  reducesTo_S32x4096x512_S32x4096_d2 : S32x4096x512.ReducesTo [2] S32x4096
  h_S_ : 0 < S_.numel
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  bcast_S32x4096x1_S32x4096x512_0_1_2 : S32x4096x1.BroadcastsInDim S32x4096x512 (![0, 1, 2] : Fin 3 → Fin S32x4096x512.rank)
  slices_S256x512_S256x256_0_0 : S256x512.Slices ![0, 0] S256x256
  slices_S256x512_S256x256_0_256 : S256x512.Slices ![0, 256] S256x256
  bcast_S256_S1x1x256_2 : S256.BroadcastsInDim S1x1x256 (![2] : Fin 1 → Fin S1x1x256.rank)
  bcast_S1x1x256_S32x4096x256_0_1_2 : S1x1x256.BroadcastsInDim S32x4096x256 (![0, 1, 2] : Fin 3 → Fin S32x4096x256.rank)
  bcast_S_S32x4096x256 : S_.BroadcastsInDim S32x4096x256 (![] : Fin 0 → Fin S32x4096x256.rank)
  dot_S32x4096x256_S512x256_S32x4096x512_2_1_01_0_n_n_wf : DotDims.WF S32x4096x256 S512x256 S32x4096x512 [2] [1] [0, 1] [0] [] []
  dot_S32x4096x512_S512x256_S32x4096x256_2_0_01_1_n_n_wf : DotDims.WF S32x4096x512 S512x256 S32x4096x256 [2] [0] [0, 1] [1] [] []
  dot_S32x4096x256_S256x256_S32x4096x256_2_1_01_0_n_n_wf : DotDims.WF S32x4096x256 S256x256 S32x4096x256 [2] [1] [0, 1] [0] [] []

variable [Facts₀]

def dot_S32x4096x256_S512x256_S32x4096x512_2_1_01_0_n_n : DotDims S32x4096x256 S512x256 S32x4096x512 where
  lhsContracting := [2]
  rhsContracting := [1]
  lhsNonContracting := [0, 1]
  rhsNonContracting := [0]
  lhsBatch := []
  rhsBatch := []
  wf := dot_S32x4096x256_S512x256_S32x4096x512_2_1_01_0_n_n_wf
def dot_S32x4096x512_S512x256_S32x4096x256_2_0_01_1_n_n : DotDims S32x4096x512 S512x256 S32x4096x256 where
  lhsContracting := [2]
  rhsContracting := [0]
  lhsNonContracting := [0, 1]
  rhsNonContracting := [1]
  lhsBatch := []
  rhsBatch := []
  wf := dot_S32x4096x512_S512x256_S32x4096x256_2_0_01_1_n_n_wf
def dot_S32x4096x256_S256x256_S32x4096x256_2_1_01_0_n_n : DotDims S32x4096x256 S256x256 S32x4096x256 where
  lhsContracting := [2]
  rhsContracting := [1]
  lhsNonContracting := [0, 1]
  rhsNonContracting := [0]
  lhsBatch := []
  rhsBatch := []
  wf := dot_S32x4096x256_S256x256_S32x4096x256_2_1_01_0_n_n_wf

class Facts : Prop extends Facts₀ where

variable [Facts]
-- ==== Proof.LibCoe.lean ====
/-
  Extended-real facts used throughout: a finite sum of reals is real, the order and the reciprocal square root on
  reals, a select on a decided comparison, the float words for 0 and 1, and the contraction of a field with an
  indicator (a one-hot row or column picks one entry; an indicator column restricts a sum).
-/
import Idealize.ShloMosaic.PureOps.Ideal
import Idealize.ShloMosaic.PureOps.Ideal.Laws

noncomputable section

open scoped BigOperators

namespace Cert.Gcn

open Idealize.ShloMosaic

/-- A finite sum of real numbers, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The strict comparison of two reals in the extended reals. -/
theorem cmp_ogt_coe (a b : ℝ) : Ideal.cmp .ogt (a : EReal) (b : EReal) = BitVec.ofBool (decide (b < a)) := by
  unfold Ideal.cmp
  simp only [EReal.coe_lt_coe_iff]

/-- A select on a decided condition is the `if`. -/
theorem select_ofBool {α : Type} (c : Prop) [Decidable c] (a b : α) :
    Scalar.select (BitVec.ofBool (decide c)) a b = if c then a else b := by
  unfold Scalar.select
  by_cases h : c
  · simp [h]
  · simp [h]

/-- The reciprocal square root of a positive real. -/
theorem rsqrt_coe_pos {r : ℝ} (h : 0 < r) : Ideal.rsqrt (r : EReal) = (((Real.sqrt r)⁻¹ : ℝ) : EReal) := by
  rw [Ideal.rsqrt_coe, if_neg (not_lt.2 h.le), if_neg (ne_of_gt h)]

/-- The word of `1.0f` denotes one. -/
theorem ofBits_one_f32 : Ideal.ofBits .f32 0x3F800000#32 = ((1 : ℝ) : EReal) := by
  simp [Ideal.ofBits, Ideal.ieee]
  rw [← EReal.coe_mul]
  norm_num

/-- The word of `0.0f` denotes the real zero. -/
theorem ofBits_zero_f32' : Ideal.ofBits .f32 0x00000000#32 = ((0 : ℝ) : EReal) := by
  rw [Ideal.ofBits_zero_f32]; rfl

/-- A real field contracted with a one-hot indicator picks the entry at the hot position. -/
theorem sum_mul_onehot {ι : Type} [Fintype ι] [DecidableEq ι] (f : ι → ℝ) (s : ι) :
    (∑ k : ι, ((f k : ℝ) : EReal) * (if k = s then ((1 : ℝ) : EReal) else ((0 : ℝ) : EReal))) = ((f s : ℝ) : EReal) := by
  have : ∀ k : ι, ((f k : ℝ) : EReal) * (if k = s then ((1 : ℝ) : EReal) else ((0 : ℝ) : EReal))
      = (((if k = s then f k else 0 : ℝ)) : EReal) := by
    intro k; by_cases hk : k = s
    · simp [hk]
    · simp [hk]
  simp only [this, coe_sum, Finset.sum_ite_eq', Finset.mem_univ, if_true]

/-- A real field contracted with an indicator of a predicate is the real sum restricted to the predicate. -/
theorem sum_mul_indicator {ι : Type} [Fintype ι] (f : ι → ℝ) (P : ι → Prop) [DecidablePred P] :
    (∑ k : ι, ((f k : ℝ) : EReal) * (if P k then ((1 : ℝ) : EReal) else ((0 : ℝ) : EReal)))
      = ((∑ k : ι, (if P k then f k else 0) : ℝ) : EReal) := by
  have : ∀ k : ι, ((f k : ℝ) : EReal) * (if P k then ((1 : ℝ) : EReal) else ((0 : ℝ) : EReal))
      = (((if P k then f k else 0 : ℝ)) : EReal) := by
    intro k; by_cases hk : P k
    · simp [hk]
    · simp [hk]
  simp only [this, coe_sum]

end Cert.Gcn

end
-- ==== Proof.RowMath.lean ====
/-
  One row of attention over a fixed bank, on the extended reals.

  For a row `x` of 256 numbers and a bank of 512 rows, the scores are the inner products `s j = ∑ d, x d · bank j d`;
  the row's peak is the greatest score; each score carries the mass `exp (s j − peak)`; the masses add up to the
  total; a score's share is its mass over the total (the softmax of the scores).  The recalled row is the shares'
  combination of the bank's rows, the drive of a gate is a pair of inner products plus a bias, and the fused row is
  `x + logistic (drive) · recalled`.

  The share can be taken two ways: as the quotient `mass / total`, or as the product `mass · (1 / total)`.  On
  the extended reals the two agree whenever the total is not zero, and the total of a row of real scores is positive:
  every mass is nonnegative and a real score minus a peak below `+∞` is not `−∞`, so its mass is positive.
-/
import Idealize.ShloMosaic.PureOps.Ideal
import Idealize.ShloMosaic.PureOps.Ideal.Laws
import proofs.«408257_j83872121357090_3_alg».proof.Proof.LibCoe

noncomputable section

open scoped BigOperators

namespace Cert.GatedRecall

open Idealize.ShloMosaic

/-- The float word of `−∞`, from which a row's peak is folded. -/
abbrev negInf : EReal := Ideal.ofBits .f32 0xFF800000#32
/-- The float word of `1`. -/
abbrev oneW : EReal := Ideal.ofBits .f32 0x3F800000#32

theorem negInf_eq : negInf = ⊥ := by simp [negInf, Ideal.ofBits, Ideal.ieee]

theorem oneW_eq : oneW = 1 := by
  show Ideal.ofBits .f32 0x3F800000#32 = 1
  rw [Cert.Gcn.ofBits_one_f32, EReal.coe_one]

/-! ## The row's quantities -/

/-- The scores of a row against the bank. -/
def score (bank : Fin 512 → Fin 256 → EReal) (x : Fin 256 → EReal) (j : Fin 512) : EReal := ∑ d : Fin 256, x d * bank j d

/-- The greatest score, folded from `−∞`. -/
def peak (s : Fin 512 → EReal) : EReal := (Finset.univ : Finset (Fin 512)).fold max negInf s

/-- A score's mass. -/
def mass (s : Fin 512 → EReal) (j : Fin 512) : EReal := Ideal.exp (s j - peak s)

/-- The masses' total. -/
def total (s : Fin 512 → EReal) : EReal := ∑ j : Fin 512, mass s j

/-- A score's share of the total, as a quotient. -/
def share (s : Fin 512 → EReal) (j : Fin 512) : EReal := Ideal.div (mass s j) (total s)

/-- The same share taken as the mass times the total's reciprocal. -/
def shareByRecip (s : Fin 512 → EReal) (j : Fin 512) : EReal := mass s j * Ideal.div oneW (total s)

/-- The weights' combination of the bank's rows. -/
def recall (bank : Fin 512 → Fin 256 → EReal) (w : Fin 512 → EReal) (d : Fin 256) : EReal := ∑ j : Fin 512, w j * bank j d

/-- What the gate is driven by: the row against one half of the gate's matrix, the recalled row against the other, a bias. -/
def drive (w1 w2 : Fin 256 → Fin 256 → EReal) (b : Fin 256 → EReal) (x r : Fin 256 → EReal) (e : Fin 256) : EReal :=
  (∑ d : Fin 256, x d * w1 e d) + (∑ d : Fin 256, r d * w2 e d) + b e

/-- The row plus the gated recalled row. -/
def fused (w1 w2 : Fin 256 → Fin 256 → EReal) (b : Fin 256 → EReal) (x r : Fin 256 → EReal) (e : Fin 256) : EReal :=
  x e + Ideal.logistic (drive w1 w2 b x r e) * r e

/-! ## The two ways of taking a share agree on real scores -/

theorem exp_nonneg (x : EReal) : 0 ≤ Ideal.exp x := by
  induction x using EReal.rec with
  | bot => exact le_refl _
  | top => exact le_top
  | coe r => exact EReal.coe_nonneg.mpr (Real.exp_pos r).le

theorem exp_pos_of_ne_bot {x : EReal} (h : x ≠ ⊥) : 0 < Ideal.exp x := by
  induction x using EReal.rec with
  | bot => exact absurd rfl h
  | top => exact EReal.zero_lt_top
  | coe r => exact EReal.coe_pos.mpr (Real.exp_pos r)

/-- The peak of scores below `+∞` is below `+∞`. -/
theorem peak_lt_top (s : Fin 512 → EReal) (h : ∀ j, s j < ⊤) : peak s < ⊤ := by
  unfold peak
  rw [Finset.fold_max_lt]
  exact ⟨by rw [negInf_eq]; exact bot_lt_top, fun j _ => h j⟩

/-- A real score's mass is positive. -/
theorem mass_pos (s : Fin 512 → EReal) (h : ∀ j, s j ≠ ⊥ ∧ s j ≠ ⊤) (j : Fin 512) : 0 < mass s j := by
  unfold mass
  refine exp_pos_of_ne_bot ?_
  have hp : peak s ≠ ⊤ := (peak_lt_top s fun j => lt_top_iff_ne_top.mpr (h j).2).ne
  intro hb
  rw [sub_eq_add_neg] at hb
  rcases EReal.add_eq_bot_iff.mp hb with h1 | h1
  · exact (h j).1 h1
  · exact hp (EReal.neg_eq_bot_iff.mp h1)

/-- So the total of a row of real scores is positive. -/
theorem total_pos (s : Fin 512 → EReal) (h : ∀ j, s j ≠ ⊥ ∧ s j ≠ ⊤) : 0 < total s := by
  unfold total
  exact lt_of_lt_of_le (mass_pos s h 0)
    (Finset.single_le_sum (f := fun j => mass s j) (fun j _ => exp_nonneg _) (Finset.mem_univ (0 : Fin 512)))

/-- Off a zero total, the mass times the total's reciprocal is the mass over the total. -/
theorem shareByRecip_eq (s : Fin 512 → EReal) (h : total s ≠ 0) (j : Fin 512) : shareByRecip s j = share s j := by
  unfold shareByRecip share Ideal.div
  rw [if_neg h, if_neg h, oneW_eq, one_mul]

theorem shareByRecip_eq_of_real (s : Fin 512 → EReal) (h : ∀ j, s j ≠ ⊥ ∧ s j ≠ ⊤) : shareByRecip s = share s :=
  funext fun j => shareByRecip_eq s (total_pos s h).ne' j

/-- Scores of a real row against a real bank are real. -/
theorem score_real (bank : Fin 512 → Fin 256 → EReal) (x : Fin 256 → EReal)
    (hx : ∀ d, x d ≠ ⊥ ∧ x d ≠ ⊤) (hb : ∀ j d, bank j d ≠ ⊥ ∧ bank j d ≠ ⊤) (j : Fin 512) :
    score bank x j ≠ ⊥ ∧ score bank x j ≠ ⊤ := by
  have e : score bank x j = ((∑ d : Fin 256, (x d).toReal * (bank j d).toReal : ℝ) : EReal) := by
    unfold score
    rw [← Cert.Gcn.coe_sum]
    refine Finset.sum_congr rfl fun d _ => ?_
    rw [EReal.coe_mul, EReal.coe_toReal (hx d).2 (hx d).1, EReal.coe_toReal (hb j d).2 (hb j d).1]
  rw [e]
  exact ⟨EReal.coe_ne_bot _, EReal.coe_ne_top _⟩

end Cert.GatedRecall

end
-- ==== Proof.ArrayMath.lean ====
/-
  The two results as whole arrays of the arguments, and the same arrays laid out flat.

  The input `x` is 32 × 4096 rows of 256 numbers; the bank has 512 rows of 256; the gate's matrix has 256 rows of 512,
  its left half meeting the row and its right half the recalled row; the bias has 256 entries. The first result holds,
  at (b, s, j), score j's share in row (b, s); the second, at (b, s, e), entry e of the row fused with its recalled row.
  Both are stated for either way of taking a share; on finite arguments the two ways give the same arrays.

  The kernel sees the rows flat, row (b, s) at position `4096·b + s` of 131072: its arrays are the flat forms, and
  reshaping the flat results gives the arrays over (b, s, ·).
-/
import Idealize.ShloMosaic.Lib.Pipeline.Value
import Idealize.ShloMosaic.Lib.ValueIdx
import proofs.«408257_j83872121357090_3_alg».proof.Proof.RowMath

noncomputable section

open scoped BigOperators

namespace Cert.GatedRecall

open Idealize.ShloMosaic Idealize.ShloMosaic.ValueIdx

/-- Column `d` of a half of the gate's matrix, as a column of its full width: in the left half, -/
abbrev lo (d : Fin 256) : Fin 512 := ⟨d.val, by have := d.isLt; omega⟩
/-- and in the right half. -/
abbrev hi (d : Fin 256) : Fin 512 := ⟨256 + d.val, by have := d.isLt; omega⟩

/-- Row (b, s) of the input. -/
abbrev rowAt (x : (⟨3, ![32, 4096, 256]⟩ : Shape).Idx → EReal) (b : Fin 32) (s : Fin 4096) : Fin 256 → EReal := fun d => x (ix3 b s d)
/-- The bank as rows. -/
abbrev bankRows (m : (⟨2, ![512, 256]⟩ : Shape).Idx → EReal) : Fin 512 → Fin 256 → EReal := fun j d => m (ix2 j d)
/-- The gate's matrix: its left and right halves. -/
abbrev gateLeft (w : (⟨2, ![256, 512]⟩ : Shape).Idx → EReal) : Fin 256 → Fin 256 → EReal := fun e d => w (ix2 e (lo d))
abbrev gateRight (w : (⟨2, ![256, 512]⟩ : Shape).Idx → EReal) : Fin 256 → Fin 256 → EReal := fun e d => w (ix2 e (hi d))
/-- The bias. -/
abbrev biasAt (b : (⟨1, ![256]⟩ : Shape).Idx → EReal) : Fin 256 → EReal := fun e => b (ix1 e)

/-- The first result: every row's shares, a share taken by `sh`. -/
def sharesWith (sh : (Fin 512 → EReal) → Fin 512 → EReal) (x : (⟨3, ![32, 4096, 256]⟩ : Shape).Idx → EReal)
    (m : (⟨2, ![512, 256]⟩ : Shape).Idx → EReal) : (⟨3, ![32, 4096, 512]⟩ : Shape).Idx → EReal :=
  fun i => sh (score (bankRows m) (rowAt x (i 0) (i 1))) (i 2)

/-- The second result: every row fused with the row its shares recall. -/
def fusedWith (sh : (Fin 512 → EReal) → Fin 512 → EReal) (x : (⟨3, ![32, 4096, 256]⟩ : Shape).Idx → EReal)
    (m : (⟨2, ![512, 256]⟩ : Shape).Idx → EReal) (w : (⟨2, ![256, 512]⟩ : Shape).Idx → EReal) (b : (⟨1, ![256]⟩ : Shape).Idx → EReal) :
    (⟨3, ![32, 4096, 256]⟩ : Shape).Idx → EReal :=
  fun i => fused (gateLeft w) (gateRight w) (biasAt b) (rowAt x (i 0) (i 1))
    (recall (bankRows m) (sh (score (bankRows m) (rowAt x (i 0) (i 1))))) (i 2)

/-! ## On finite arguments the two ways of taking a share give the same arrays -/

theorem scores_real (x : (⟨3, ![32, 4096, 256]⟩ : Shape).Idx → EReal) (m : (⟨2, ![512, 256]⟩ : Shape).Idx → EReal)
    (hx : ∀ i, x i ≠ ⊥ ∧ x i ≠ ⊤) (hm : ∀ i, m i ≠ ⊥ ∧ m i ≠ ⊤) (b : Fin 32) (s : Fin 4096) (j : Fin 512) :
    score (bankRows m) (rowAt x b s) j ≠ ⊥ ∧ score (bankRows m) (rowAt x b s) j ≠ ⊤ :=
  score_real (bankRows m) (rowAt x b s) (fun d => hx _) (fun j d => hm _) j

theorem sharesWith_recip (x : (⟨3, ![32, 4096, 256]⟩ : Shape).Idx → EReal) (m : (⟨2, ![512, 256]⟩ : Shape).Idx → EReal)
    (hx : ∀ i, x i ≠ ⊥ ∧ x i ≠ ⊤) (hm : ∀ i, m i ≠ ⊥ ∧ m i ≠ ⊤) : sharesWith shareByRecip x m = sharesWith share x m := by
  funext i
  unfold sharesWith
  rw [shareByRecip_eq_of_real _ (scores_real x m hx hm (i 0) (i 1))]

theorem fusedWith_recip (x : (⟨3, ![32, 4096, 256]⟩ : Shape).Idx → EReal) (m : (⟨2, ![512, 256]⟩ : Shape).Idx → EReal)
    (w : (⟨2, ![256, 512]⟩ : Shape).Idx → EReal) (b : (⟨1, ![256]⟩ : Shape).Idx → EReal)
    (hx : ∀ i, x i ≠ ⊥ ∧ x i ≠ ⊤) (hm : ∀ i, m i ≠ ⊥ ∧ m i ≠ ⊤) : fusedWith shareByRecip x m w b = fusedWith share x m w b := by
  funext i
  unfold fusedWith
  rw [shareByRecip_eq_of_real _ (scores_real x m hx hm (i 0) (i 1))]

/-! ## The flat forms -/

/-- Where row (b, s) sits among the 131072 flat rows. -/
abbrev flatRow (b : Fin 32) (s : Fin 4096) : Fin 131072 := ⟨b.val * 4096 + s.val, by have := b.isLt; have := s.isLt; omega⟩

/-- The shares over flat rows, the share taken by the total's reciprocal. -/
def sharesFlat (X : (⟨2, ![131072, 256]⟩ : Shape).Idx → EReal) (B : (⟨2, ![512, 256]⟩ : Shape).Idx → EReal) :
    (⟨2, ![131072, 512]⟩ : Shape).Idx → EReal :=
  fun i => shareByRecip (score (bankRows B) (fun d => X (ix2 (i 0) d))) (i 1)

/-- The fused rows over flat rows; the bias is a one-row matrix here. -/
def fusedFlat (X : (⟨2, ![131072, 256]⟩ : Shape).Idx → EReal) (B : (⟨2, ![512, 256]⟩ : Shape).Idx → EReal)
    (W : (⟨2, ![256, 512]⟩ : Shape).Idx → EReal) (bb : (⟨2, ![1, 256]⟩ : Shape).Idx → EReal) : (⟨2, ![131072, 256]⟩ : Shape).Idx → EReal :=
  fun i => fused (gateLeft W) (gateRight W) (fun e => bb (ix2 (0 : Fin 1) e)) (fun d => X (ix2 (i 0) d))
    (recall (bankRows B) (shareByRecip (score (bankRows B) (fun d => X (ix2 (i 0) d))))) (i 1)

section Reshape
variable {α : Type}

/-- The input reshaped to flat rows, read at flat row (b, s). -/
theorem flatten_at (x : (⟨3, ![32, 4096, 256]⟩ : Shape).Idx → α) (h : (⟨3, ![32, 4096, 256]⟩ : Shape).ShapeCasts ⟨2, ![131072, 256]⟩)
    (b : Fin 32) (s : Fin 4096) (d : Fin 256) : shapeCast ⟨2, ![131072, 256]⟩ x h (ix2 (flatRow b s) d) = x (ix3 b s d) := by
  refine shapeCast_apply x h (ix2 (flatRow b s) d) (ix3 b s d) ?_
  rw [Shape.rowMajor_val_two, Shape.rowMajor_val_three]
  rfl

/-- A flat result reshaped back over (b, s, ·), read at (b, s, j). -/
theorem unflatten_at {C : Nat} (Y : (⟨2, ![131072, C]⟩ : Shape).Idx → α) (h : (⟨2, ![131072, C]⟩ : Shape).ShapeCasts ⟨3, ![32, 4096, C]⟩)
    (b : Fin 32) (s : Fin 4096) (j : Fin C) : shapeCast ⟨3, ![32, 4096, C]⟩ Y h (ix3 b s j) = Y (ix2 (flatRow b s) j) := by
  refine shapeCast_apply Y h (ix3 b s j) (ix2 (flatRow b s) j) ?_
  rw [Shape.rowMajor_val_two, Shape.rowMajor_val_three]
  rfl

/-- A vector of 256 entries reshaped to one row, read at (0, e). -/
theorem oneRow_at (b : (⟨1, ![256]⟩ : Shape).Idx → α) (h : (⟨1, ![256]⟩ : Shape).ShapeCasts ⟨2, ![1, 256]⟩) (e : Fin 256) :
    shapeCast ⟨2, ![1, 256]⟩ b h (ix2 (0 : Fin 1) e) = b (ix1 e) := by
  refine shapeCast_apply b h (ix2 (0 : Fin 1) e) (ix1 e) ?_
  rw [Shape.rowMajor_val_two, Shape.rowMajor_val_one]
  show e.val = 0 * 256 + e.val
  omega

end Reshape

/-- The flat shares of the flattened input, reshaped back, are the shares over (b, s, ·). -/
theorem unflatten_shares (x : (⟨3, ![32, 4096, 256]⟩ : Shape).Idx → EReal) (m : (⟨2, ![512, 256]⟩ : Shape).Idx → EReal)
    (h1 : (⟨3, ![32, 4096, 256]⟩ : Shape).ShapeCasts ⟨2, ![131072, 256]⟩) (h2 : (⟨2, ![131072, 512]⟩ : Shape).ShapeCasts ⟨3, ![32, 4096, 512]⟩) :
    shapeCast ⟨3, ![32, 4096, 512]⟩ (sharesFlat (shapeCast ⟨2, ![131072, 256]⟩ x h1) m) h2 = sharesWith shareByRecip x m := by
  funext i
  obtain ⟨b, s, j, rfl⟩ : ∃ (b : Fin 32) (s : Fin 4096) (j : Fin 512), i = ix3 b s j := ⟨i 0, i 1, i 2, eq_ix3 i⟩
  rw [unflatten_at]
  unfold sharesFlat sharesWith
  have hr : (fun d => shapeCast ⟨2, ![131072, 256]⟩ x h1 (ix2 (flatRow b s) d)) = rowAt x b s := funext fun d => flatten_at x h1 b s d
  exact congrArg (fun r => shareByRecip (score (bankRows m) r) j) hr

/-- The flat fused rows of the flattened input and the bias as one row, reshaped back, are the fused rows over (b, s, ·). -/
theorem unflatten_fused (x : (⟨3, ![32, 4096, 256]⟩ : Shape).Idx → EReal) (m : (⟨2, ![512, 256]⟩ : Shape).Idx → EReal)
    (w : (⟨2, ![256, 512]⟩ : Shape).Idx → EReal) (bv : (⟨1, ![256]⟩ : Shape).Idx → EReal)
    (h1 : (⟨3, ![32, 4096, 256]⟩ : Shape).ShapeCasts ⟨2, ![131072, 256]⟩) (h3 : (⟨1, ![256]⟩ : Shape).ShapeCasts ⟨2, ![1, 256]⟩)
    (h2 : (⟨2, ![131072, 256]⟩ : Shape).ShapeCasts ⟨3, ![32, 4096, 256]⟩) :
    shapeCast ⟨3, ![32, 4096, 256]⟩ (fusedFlat (shapeCast ⟨2, ![131072, 256]⟩ x h1) m w (shapeCast ⟨2, ![1, 256]⟩ bv h3)) h2
      = fusedWith shareByRecip x m w bv := by
  funext i
  obtain ⟨b, s, e, rfl⟩ : ∃ (b : Fin 32) (s : Fin 4096) (e : Fin 256), i = ix3 b s e := ⟨i 0, i 1, i 2, eq_ix3 i⟩
  rw [unflatten_at]
  unfold fusedFlat fusedWith
  have hr : (fun d => shapeCast ⟨2, ![131072, 256]⟩ x h1 (ix2 (flatRow b s) d)) = rowAt x b s := funext fun d => flatten_at x h1 b s d
  have hb : (fun e => shapeCast ⟨2, ![1, 256]⟩ bv h3 (ix2 (0 : Fin 1) e)) = biasAt bv := funext fun e => oneRow_at bv h3 e
  show fused (gateLeft w) (gateRight w) (fun e => shapeCast ⟨2, ![1, 256]⟩ bv h3 (ix2 (0 : Fin 1) e))
      (fun d => shapeCast ⟨2, ![131072, 256]⟩ x h1 (ix2 (flatRow b s) d))
      (recall (bankRows m) (shareByRecip (score (bankRows m) (fun d => shapeCast ⟨2, ![131072, 256]⟩ x h1 (ix2 (flatRow b s) d))))) e
    = fused (gateLeft w) (gateRight w) (biasAt bv) (rowAt x b s) (recall (bankRows m) (shareByRecip (score (bankRows m) (rowAt x b s)))) e
  rw [hr, hb]

end Cert.GatedRecall

end
-- ==== Proof.LibDot.lean ====
/-
  The matrix unit's product of an `[R, K]` by a `[K, C]` matrix into a zero accumulator, read at an entry, at the
  extended reals: the sum over `k` of the products.  And the product taken "exactly in two passes": of the left operand
  narrowed, plus of the left operand minus itself narrowed — on a real left operand the second pass is a product with
  zero, and the two passes together are the one real product.
-/
import Idealize.ShloMosaic.PureOps.Ideal
import Idealize.ShloMosaic.PureOps.Ideal.Laws
import Idealize.ShloMosaic.Lib.ValueIdx
import proofs.«408257_j83872121357090_3_alg».proof.Proof.LibCoe

noncomputable section

open scoped BigOperators

namespace Cert.Gcn.Dot

open Idealize.ShloMosaic Idealize.ShloMosaic.ValueIdx

/-- The dimension numbers of a plain matrix product: contract the left operand's axis 1 with the right's axis 0. -/
abbrev mm (R K C : Nat) (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ := ⟨[1], [0], [0], [1], [], [], wf⟩

/-- The left operand's index on axis 0 is the result index's row. -/
theorem lhs_0 {R K C : Nat} (wf : DotDims.WF ⟨2, ![R, K]⟩ ⟨2, ![K, C]⟩ ⟨2, ![R, C]⟩ [1] [0] [0] [1] [] [])
    (j : (⟨2, ![R, C]⟩ : Shape).Idx) (q : (mm R K C wf).contr.Idx) :
    ((mm R K C wf).lhsIdx j q 0).val = (j 0).val := by
  unfold DotDims.lhsIdx
  rw [dif_neg (show ¬(0 : Fin (⟨2, ![R, K]⟩ : Shape).rank) ∈ (mm R K C wf).lhsBatch from List.not_mem_nil),
    dif_pos (show (0 : Fin (⟨2, ![R, K]⟩ : Shape).rank) ∈ (mm R K C wf).lhsNonContracting from List.mem_singleton.mpr rfl)]
  rfl

/-- The left operand's index on axis 1 is the contraction position's one coordinate. -/
theorem lhs_1 {R K C : Nat} (wf : DotDims.WF ⟨2, ![R, K]⟩ ⟨2, ![K, C]⟩ ⟨2, ![R, C]⟩ [1] [0] [0] [1] [] [])
    (j : (⟨2, ![R, C]⟩ : Shape).Idx) (q : (mm R K C wf).contr.Idx) :
    ((mm R K C wf).lhsIdx j q 1).val = (q ⟨0, Nat.one_pos⟩).val :=
  (mm R K C wf).lhsIdx_val_of_single rfl j q

/-- The right operand's index on axis 0 is the contraction position's one coordinate. -/
theorem rhs_0 {R K C : Nat} (wf : DotDims.WF ⟨2, ![R, K]⟩ ⟨2, ![K, C]⟩ ⟨2, ![R, C]⟩ [1] [0] [0] [1] [] [])
    (j : (⟨2, ![R, C]⟩ : Shape).Idx) (q : (mm R K C wf).contr.Idx) :
    ((mm R K C wf).rhsIdx j q 0).val = (q ⟨0, Nat.one_pos⟩).val :=
  (mm R K C wf).rhsIdx_val_of_single rfl j q

/-- The right operand's index on axis 1 is the result index's column. -/
theorem rhs_1 {R K C : Nat} (wf : DotDims.WF ⟨2, ![R, K]⟩ ⟨2, ![K, C]⟩ ⟨2, ![R, C]⟩ [1] [0] [0] [1] [] [])
    (j : (⟨2, ![R, C]⟩ : Shape).Idx) (q : (mm R K C wf).contr.Idx) :
    ((mm R K C wf).rhsIdx j q 1).val = (j 1).val := by
  unfold DotDims.rhsIdx
  rw [dif_neg (show ¬(1 : Fin (⟨2, ![K, C]⟩ : Shape).rank) ∈ (mm R K C wf).rhsBatch from List.not_mem_nil),
    dif_pos (show (1 : Fin (⟨2, ![K, C]⟩ : Shape).rank) ∈ (mm R K C wf).rhsNonContracting from List.mem_singleton.mpr rfl)]
  rfl

/-- THE PRODUCT AT `(r, c)`: into a zero accumulator, the sum over the contracted axis. -/
theorem matmul_zero_apply {R K C : Nat} {φ₁ φ₂ : FTy}
    (wf : DotDims.WF ⟨2, ![R, K]⟩ ⟨2, ![K, C]⟩ ⟨2, ![R, C]⟩ [1] [0] [0] [1] [] [])
    (prec : Option ContractPrecision) (x : FVec Ideal ⟨2, ![R, K]⟩ φ₁) (g : FVec Ideal ⟨2, ![K, C]⟩ φ₂) (r : Fin R) (c : Fin C) :
    matmul (mm R K C wf) prec x g (constant (F := Ideal) ⟨2, ![R, C]⟩ .f32 0x00000000#32) (ix2 r c)
      = ∑ k : Fin K, x (ix2 r k) * g (ix2 k c) := by
  refine (Ideal.matmul_constant_zero_apply (mm R K C wf) prec x g (ix2 r c)).trans ?_
  rw [← Equiv.sum_comp (contrEquiv1 (mm R K C wf) K rfl rfl).symm]
  refine Finset.sum_congr rfl fun k _ => ?_
  have hk := contrEquiv1_symm_val (mm R K C wf) K rfl rfl k
  have el : (mm R K C wf).lhsIdx (ix2 r c) ((contrEquiv1 (mm R K C wf) K rfl rfl).symm k) = ix2 r k :=
    funext fun a => Fin.ext (by
      match a with
      | ⟨0, _⟩ => exact lhs_0 wf _ _
      | ⟨1, _⟩ => exact (lhs_1 wf _ _).trans hk)
  have er : (mm R K C wf).rhsIdx (ix2 r c) ((contrEquiv1 (mm R K C wf) K rfl rfl).symm k) = ix2 k c :=
    funext fun a => Fin.ext (by
      match a with
      | ⟨0, _⟩ => exact (rhs_0 wf _ _).trans hk
      | ⟨1, _⟩ => exact rhs_1 wf _ _)
  rw [el, er]

/-- THE TWO-PASS PRODUCT ON REAL DATA: the pass over the operand plus the pass over the operand minus itself is the
    real product. (`X` the left operand's entries, `G` the right's; the narrowing to bf16 is the identity here.) -/
theorem split_matmul_apply {R K C : Nat}
    (wf : DotDims.WF ⟨2, ![R, K]⟩ ⟨2, ![K, C]⟩ ⟨2, ![R, C]⟩ [1] [0] [0] [1] [] [])
    (prec : Option ContractPrecision) (x : FVec Ideal ⟨2, ![R, K]⟩ .f32) (g : FVec Ideal ⟨2, ![K, C]⟩ .bf16)
    (hb : FTy.bf16.bits < FTy.f32.bits)
    (X : Fin R → Fin K → ℝ) (G : Fin K → Fin C → ℝ)
    (hx : ∀ r k, x (ix2 r k) = ((X r k : ℝ) : EReal)) (hg : ∀ k c, g (ix2 k c) = ((G k c : ℝ) : EReal)) (r : Fin R) (c : Fin C) :
    addf (matmul (mm R K C wf) prec (truncf .bf16 x hb) g (constant (F := Ideal) ⟨2, ![R, C]⟩ .f32 0x00000000#32))
         (matmul (mm R K C wf) prec (truncf .bf16 (subf x x) hb) g (constant (F := Ideal) ⟨2, ![R, C]⟩ .f32 0x00000000#32)) (ix2 r c)
      = ((∑ k : Fin K, X r k * G k c : ℝ) : EReal) := by
  rw [addf_apply, matmul_zero_apply wf prec (truncf .bf16 x hb) g r c,
    matmul_zero_apply wf prec (truncf .bf16 (subf x x) hb) g r c]
  have h1 : ∀ k : Fin K, (truncf .bf16 x hb : FVec Ideal ⟨2, ![R, K]⟩ .bf16) (ix2 r k) * g (ix2 k c)
      = ((X r k * G k c : ℝ) : EReal) := fun k => by
    rw [truncf_apply, hx, hg, ← EReal.coe_mul]
  have h2 : ∀ k : Fin K, (truncf .bf16 (subf x x) hb : FVec Ideal ⟨2, ![R, K]⟩ .bf16) (ix2 r k) * g (ix2 k c)
      = 0 := fun k => by
    rw [truncf_apply, subf_apply, hx, hg, ← EReal.coe_sub, sub_self, EReal.coe_zero, zero_mul]
  rw [Finset.sum_congr rfl (fun k _ => h1 k), Finset.sum_congr rfl (fun k _ => h2 k), Finset.sum_const_zero,
    add_zero, Cert.Gcn.coe_sum]

end Cert.Gcn.Dot

end
-- ==== Proof.LibDotRows.lean ====
/-
  The matrix unit's product of an `[R, K]` matrix with the TRANSPOSE of a `[C, K]` matrix — both operands contracted
  on their second axis — into a zero accumulator, read at an entry, at the extended reals: entry `(r, c)` is the sum
  over `k` of `x (r, k) · g (c, k)`, the inner product of row `r` of the left operand with row `c` of the right one.
-/
import Idealize.ShloMosaic.PureOps.Ideal
import Idealize.ShloMosaic.PureOps.Ideal.Laws
import Idealize.ShloMosaic.Lib.ValueIdx

noncomputable section

open scoped BigOperators

namespace Cert.DotRows

open Idealize.ShloMosaic Idealize.ShloMosaic.ValueIdx

/-- The dimension numbers of rows against rows: contract the left operand's axis 1 with the right operand's axis 1. -/
abbrev rr (R K C : Nat) (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ := ⟨[1], [1], [0], [0], [], [], wf⟩

/-- The left operand's index on axis 0 is the result index's row. -/
theorem lhs_0 {R K C : Nat} (wf : DotDims.WF ⟨2, ![R, K]⟩ ⟨2, ![C, K]⟩ ⟨2, ![R, C]⟩ [1] [1] [0] [0] [] [])
    (j : (⟨2, ![R, C]⟩ : Shape).Idx) (q : (rr R K C wf).contr.Idx) :
    ((rr R K C wf).lhsIdx j q 0).val = (j 0).val := by
  unfold DotDims.lhsIdx
  rw [dif_neg (show ¬(0 : Fin (⟨2, ![R, K]⟩ : Shape).rank) ∈ (rr R K C wf).lhsBatch from List.not_mem_nil),
    dif_pos (show (0 : Fin (⟨2, ![R, K]⟩ : Shape).rank) ∈ (rr R K C wf).lhsNonContracting from List.mem_singleton.mpr rfl)]
  rfl

/-- The left operand's index on axis 1 is the contraction position's one coordinate. -/
theorem lhs_1 {R K C : Nat} (wf : DotDims.WF ⟨2, ![R, K]⟩ ⟨2, ![C, K]⟩ ⟨2, ![R, C]⟩ [1] [1] [0] [0] [] [])
    (j : (⟨2, ![R, C]⟩ : Shape).Idx) (q : (rr R K C wf).contr.Idx) :
    ((rr R K C wf).lhsIdx j q 1).val = (q ⟨0, Nat.one_pos⟩).val :=
  (rr R K C wf).lhsIdx_val_of_single rfl j q

/-- The right operand's index on axis 0 is the result index's column. -/
theorem rhs_0 {R K C : Nat} (wf : DotDims.WF ⟨2, ![R, K]⟩ ⟨2, ![C, K]⟩ ⟨2, ![R, C]⟩ [1] [1] [0] [0] [] [])
    (j : (⟨2, ![R, C]⟩ : Shape).Idx) (q : (rr R K C wf).contr.Idx) :
    ((rr R K C wf).rhsIdx j q 0).val = (j 1).val := by
  unfold DotDims.rhsIdx
  rw [dif_neg (show ¬(0 : Fin (⟨2, ![C, K]⟩ : Shape).rank) ∈ (rr R K C wf).rhsBatch from List.not_mem_nil),
    dif_pos (show (0 : Fin (⟨2, ![C, K]⟩ : Shape).rank) ∈ (rr R K C wf).rhsNonContracting from List.mem_singleton.mpr rfl)]
  rfl

/-- The right operand's index on axis 1 is the contraction position's one coordinate. -/
theorem rhs_1 {R K C : Nat} (wf : DotDims.WF ⟨2, ![R, K]⟩ ⟨2, ![C, K]⟩ ⟨2, ![R, C]⟩ [1] [1] [0] [0] [] [])
    (j : (⟨2, ![R, C]⟩ : Shape).Idx) (q : (rr R K C wf).contr.Idx) :
    ((rr R K C wf).rhsIdx j q 1).val = (q ⟨0, Nat.one_pos⟩).val :=
  (rr R K C wf).rhsIdx_val_of_single rfl j q

/-- THE PRODUCT AT `(r, c)`: into a zero accumulator, the inner product of the operands' rows `r` and `c`. -/
theorem matmul_zero_apply {R K C : Nat} {φ₁ φ₂ : FTy}
    (wf : DotDims.WF ⟨2, ![R, K]⟩ ⟨2, ![C, K]⟩ ⟨2, ![R, C]⟩ [1] [1] [0] [0] [] [])
    (prec : Option ContractPrecision) (x : FVec Ideal ⟨2, ![R, K]⟩ φ₁) (g : FVec Ideal ⟨2, ![C, K]⟩ φ₂) (r : Fin R) (c : Fin C) :
    matmul (rr R K C wf) prec x g (constant (F := Ideal) ⟨2, ![R, C]⟩ .f32 0x00000000#32) (ix2 r c)
      = ∑ k : Fin K, x (ix2 r k) * g (ix2 c k) := by
  refine (Ideal.matmul_constant_zero_apply (rr R K C wf) prec x g (ix2 r c)).trans ?_
  rw [← Equiv.sum_comp (contrEquiv1 (rr R K C wf) K rfl rfl).symm]
  refine Finset.sum_congr rfl fun k _ => ?_
  have hk := contrEquiv1_symm_val (rr R K C wf) K rfl rfl k
  have el : (rr R K C wf).lhsIdx (ix2 r c) ((contrEquiv1 (rr R K C wf) K rfl rfl).symm k) = ix2 r k :=
    funext fun a => Fin.ext (by
      match a with
      | ⟨0, _⟩ => exact lhs_0 wf _ _
      | ⟨1, _⟩ => exact (lhs_1 wf _ _).trans hk)
  have er : (rr R K C wf).rhsIdx (ix2 r c) ((contrEquiv1 (rr R K C wf) K rfl rfl).symm k) = ix2 c k :=
    funext fun a => Fin.ext (by
      match a with
      | ⟨0, _⟩ => exact rhs_0 wf _ _
      | ⟨1, _⟩ => exact (rhs_1 wf _ _).trans hk)
  rw [el, er]

end Cert.DotRows

end
-- ==== Proof.KernelBody.lean ====
/-
  What the kernel's body stores, read at one entry, at the extended reals.

  The body works on a block of 2048 rows. Its first store holds, at (p, q), the share of score q in row p, taken as the
  mass times the reciprocal of the row's total; its second store holds, at (p, e), the row's entry plus the gated entry
  of the row recalled from the bank with those shares. The narrowings to bf16 and the casts of a shape to itself are
  identities here; a row reduction kept as a column and laid back along the row is the row's value at every column.
-/
import proofs.«408257_j83872121357090_3_alg».proof.Proof.Gen.KernelIdeal.Skeleton
import proofs.«408257_j83872121357090_3_alg».proof.Proof.ArrayMath
import proofs.«408257_j83872121357090_3_alg».proof.Proof.LibDot
import proofs.«408257_j83872121357090_3_alg».proof.Proof.LibDotRows
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.GatedRecall

/-! ## Rows and matrices out of the loaded blocks -/

/-- Row `p` of a block of rows. -/
abbrev rowOf (v : Vec Ideal S2048x256 .f32) (p : Fin 2048) : Fin 256 → EReal := fun d => v (ix2 p d)
/-- The bank as rows. -/
abbrev bankOf (v : Vec Ideal S512x256 .bf16) : Fin 512 → Fin 256 → EReal := fun j d => v (ix2 j d)
/-- The two halves of the gate's matrix. -/
abbrev gateLo (v : Vec Ideal S256x512 .bf16) : Fin 256 → Fin 256 → EReal := fun e d => v (ix2 e (lo d))
abbrev gateHi (v : Vec Ideal S256x512 .bf16) : Fin 256 → Fin 256 → EReal := fun e d => v (ix2 e (hi d))
/-- The bias row. -/
abbrev biasOf (v : Vec Ideal S1x256 .f32) : Fin 256 → EReal := fun e => v (ix2 (0 : Fin 1) e)

/-! ## Pointwise operations at an entry -/

theorem exp_apply {s : Shape} {φ : FTy} (a : FVec Ideal s φ) (i : s.Idx) : exp a i = Ideal.exp (a i) := rfl
theorem logistic_apply {s : Shape} {φ : FTy} (a : FVec Ideal s φ) (i : s.Idx) : logistic a i = Ideal.logistic (a i) := rfl

/-! ## The identities -/

theorem pay1_eq (v0 : Vec Ideal S2048x256 .f32) : k0_pay1 v0 = v0 := shapeCast_self v0 _
theorem pay2_eq (v2 : Vec Ideal S512x256 .bf16) : k0_pay2 v2 = v2 := shapeCast_self v2 _
theorem pay3_at (v0 : Vec Ideal S2048x256 .f32) (i : S2048x256.Idx) : k0_pay3 v0 i = v0 i := by
  unfold k0_pay3
  rw [truncf_apply, pay1_eq]

/-! ## A row reduction kept as a column and laid back along the row -/

section Columns
variable {α : Type}

/-- A vector of 2048 entries reshaped to a column, read at (p, 0), is the vector at p. -/
theorem column_at (r : S2048.Idx → α) (p : Fin 2048) :
    shapeCast S2048x1 r shapeCasts_S2048_S2048x1 (ix2 p (0 : Fin 1)) = r (ix1 p) := by
  refine shapeCast_apply r shapeCasts_S2048_S2048x1 (ix2 p (0 : Fin 1)) (ix1 p) ?_
  rw [Shape.rowMajor_val_two, Shape.rowMajor_val_one]
  show p.val = p.val * 1 + 0
  omega

/-- A column laid along the rows' 512 entries, read at (p, q), is the column at (p, 0). -/
theorem along_at (y : S2048x1.Idx → α) (p : Fin 2048) (q : Fin 512) :
    broadcastTo S2048x512 y broadcasts_S2048x1_S2048x512 (ix2 p q) = y (ix2 p (0 : Fin 1)) := by
  refine broadcastTo_apply y broadcasts_S2048x1_S2048x512 (ix2 p q) (ix2 p (0 : Fin 1)) ?_
  intro a
  match a with
  | ⟨0, _⟩ => show p.val = if (2048 : Nat) = 1 then 0 else p.val; rw [if_neg (by decide)]
  | ⟨1, _⟩ => show (0 : Nat) = if (1 : Nat) = 1 then 0 else q.val; rw [if_pos rfl]

end Columns

/-- The reduced index `p` with column `k` put back is (p, k). -/
theorem lift_row (h : S2048x512.Reduces [1] S2048) (p : Fin 2048) (k : Fin (S2048x512.size 1)) :
    h.lift (ix1 p) k = ix2 p (⟨k.val, k.isLt⟩ : Fin 512) := by
  funext c; apply Fin.ext
  fin_cases c <;> rfl

/-- Each row's peak, kept as a column and laid back along the row. -/
abbrev peakAlong (S : FVec Ideal S2048x512 .f32) : FVec Ideal S2048x512 .f32 :=
  broadcastTo S2048x512 (shapeCast S2048x1 (multiReduction .maximumf [1] S2048 S 0xFF800000#32 reduces_S2048x512_S2048 (.inl rfl) rfl)
    shapeCasts_S2048_S2048x1) broadcasts_S2048x1_S2048x512

theorem peakAlong_at (S : FVec Ideal S2048x512 .f32) (p : Fin 2048) (q : Fin 512) :
    peakAlong S (ix2 p q) = peak fun j => S (ix2 p j) := by
  unfold peakAlong
  rw [along_at, column_at]
  refine (Ideal.multiReduction_maximumf_single S 0xFF800000#32 reduces_S2048x512_S2048 (.inl rfl) rfl (ix1 p)).trans ?_
  unfold peak
  have hf : (S ∘ reduces_S2048x512_S2048.lift (ix1 p)) = fun j : Fin 512 => S (ix2 p j) :=
    funext fun k => congrArg S (lift_row reduces_S2048x512_S2048 p k)
  exact congrArg (fun f => Finset.fold max negInf f (Finset.univ : Finset (Fin 512))) hf

/-- The masses: the exponential of each score less its row's peak. -/
abbrev massOf (S : FVec Ideal S2048x512 .f32) : FVec Ideal S2048x512 .f32 := exp (subf S (peakAlong S))

theorem massOf_at (S : FVec Ideal S2048x512 .f32) (p : Fin 2048) (q : Fin 512) :
    massOf S (ix2 p q) = mass (fun j => S (ix2 p j)) q := by
  unfold massOf
  rw [exp_apply, subf_apply, peakAlong_at]
  rfl

/-- The reciprocal of each row's total of `E`, kept as a column and laid back along the row. -/
abbrev recipAlong (E : FVec Ideal S2048x512 .f32) : FVec Ideal S2048x512 .f32 :=
  broadcastTo S2048x512 (divf (broadcast S2048x1 (Scalar.ofBits (F := Ideal) .f32 0x3F800000#32))
    (shapeCast S2048x1 (multiReduction .add [1] S2048 E 0x00000000#32 reduces_S2048x512_S2048 (.inl rfl) rfl) shapeCasts_S2048_S2048x1))
    broadcasts_S2048x1_S2048x512

theorem recipAlong_at (E : FVec Ideal S2048x512 .f32) (p : Fin 2048) (q : Fin 512) :
    recipAlong E (ix2 p q) = Ideal.div oneW (∑ j : Fin 512, E (ix2 p j)) := by
  unfold recipAlong
  rw [along_at, divf_apply, column_at]
  have hs : multiReduction .add [1] S2048 E 0x00000000#32 reduces_S2048x512_S2048 (.inl rfl) rfl (ix1 p) = ∑ j : Fin 512, E (ix2 p j) :=
    (Ideal.multiReduction_add_single E 0x00000000#32 reduces_S2048x512_S2048 (.inl rfl) rfl (ix1 p)).trans
      (Finset.sum_congr rfl fun k _ => congrArg E (lift_row reduces_S2048x512_S2048 p k))
  exact congrArg (fun t => Ideal.div oneW t) hs

/-! ## The first store: the shares -/

/-- The block's scores against the bank. -/
abbrev scoresOf (v0 : Vec Ideal S2048x256 .f32) (v2 : Vec Ideal S512x256 .bf16) : FVec Ideal S2048x512 .f32 :=
  matmul dot_S2048x256_S512x256_S2048x512_1_1_0_0_n_n none (k0_pay3 v0) (k0_pay2 v2) (constant (F := Ideal) S2048x512 .f32 0x00000000#32)

theorem scoresOf_at (v0 : Vec Ideal S2048x256 .f32) (v2 : Vec Ideal S512x256 .bf16) (p : Fin 2048) (q : Fin 512) :
    scoresOf v0 v2 (ix2 p q) = score (bankOf v2) (rowOf v0 p) q := by
  unfold scoresOf score
  refine (Cert.DotRows.matmul_zero_apply dot_S2048x256_S512x256_S2048x512_1_1_0_0_n_n_wf none (k0_pay3 v0) (k0_pay2 v2) p q).trans ?_
  refine Finset.sum_congr rfl fun d _ => ?_
  rw [pay3_at, pay2_eq]

/-- The first payload is the masses times the reciprocal of their rows' totals. -/
theorem pay4_eq (v0 : Vec Ideal S2048x256 .f32) (v2 : Vec Ideal S512x256 .bf16) :
    k0_pay4 v0 v2 = mulf (massOf (scoresOf v0 v2)) (recipAlong (massOf (scoresOf v0 v2))) := rfl

/-- THE SHARES: the first store at (p, q) is score q's share in row p, by the reciprocal of the total. -/
theorem pay4_at (v0 : Vec Ideal S2048x256 .f32) (v2 : Vec Ideal S512x256 .bf16) (p : Fin 2048) (q : Fin 512) :
    k0_pay4 v0 v2 (ix2 p q) = shareByRecip (score (bankOf v2) (rowOf v0 p)) q := by
  have hS : (fun j => scoresOf v0 v2 (ix2 p j)) = score (bankOf v2) (rowOf v0 p) := funext fun j => scoresOf_at v0 v2 p j
  rw [pay4_eq, mulf_apply, massOf_at, recipAlong_at, hS]
  unfold shareByRecip total
  refine congrArg (fun t => mass (score (bankOf v2) (rowOf v0 p)) q * Ideal.div oneW t) ?_
  refine Finset.sum_congr rfl fun j _ => ?_
  rw [massOf_at, hS]

/-! ## The second store: the fused rows -/

/-- The rows recalled from the bank with the shares. -/
abbrev recalledOf (v0 : Vec Ideal S2048x256 .f32) (v2 : Vec Ideal S512x256 .bf16) : FVec Ideal S2048x256 .f32 :=
  matmul dot_S2048x512_S512x256_S2048x256_1_0_0_1_n_n none (truncf .bf16 (k0_pay4 v0 v2) bitsLt_bf16_f32) (k0_pay2 v2)
    (constant (F := Ideal) S2048x256 .f32 0x00000000#32)

theorem recalledOf_at (v0 : Vec Ideal S2048x256 .f32) (v2 : Vec Ideal S512x256 .bf16) (p : Fin 2048) (d : Fin 256) :
    recalledOf v0 v2 (ix2 p d) = recall (bankOf v2) (shareByRecip (score (bankOf v2) (rowOf v0 p))) d := by
  unfold recalledOf recall
  refine (Cert.Gcn.Dot.matmul_zero_apply dot_S2048x512_S512x256_S2048x256_1_0_0_1_n_n_wf none
    (truncf .bf16 (k0_pay4 v0 v2) bitsLt_bf16_f32) (k0_pay2 v2) p d).trans ?_
  refine Finset.sum_congr rfl fun j _ => ?_
  rw [truncf_apply, pay4_at, pay2_eq]

/-- The two halves of the gate's matrix as the body cuts them out. -/
abbrev loHalf (v4 : Vec Ideal S256x512 .bf16) : FVec Ideal S256x256 .bf16 :=
  extractStridedSlice S256x256 ![0, 0] (shapeCast S256x512 v4 shapeCasts_S256x512_S256x512) slices_S256x512_o0_0_S256x256
abbrev hiHalf (v4 : Vec Ideal S256x512 .bf16) : FVec Ideal S256x256 .bf16 :=
  extractStridedSlice S256x256 ![0, 256] (shapeCast S256x512 v4 shapeCasts_S256x512_S256x512) slices_S256x512_o0_256_S256x256
/-- The bias row laid down the block's rows. -/
abbrev biasDown (v6 : Vec Ideal S1x256 .f32) : FVec Ideal S2048x256 .f32 :=
  broadcastTo S2048x256 (shapeCast S1x256 v6 shapeCasts_S1x256_S1x256) broadcasts_S1x256_S2048x256

/-- A half of the gate's matrix, read at (e, d). -/
theorem gateLo_at (v4 : Vec Ideal S256x512 .bf16) (e d : Fin 256) : loHalf v4 (ix2 e d) = gateLo v4 e d := by
  unfold loHalf
  rw [shapeCast_self]
  refine extractStridedSlice_apply ![0, 0] v4 slices_S256x512_o0_0_S256x256 (ix2 e d) (ix2 e (lo d)) ?_
  intro a
  match a with
  | ⟨0, _⟩ => show e.val = 0 + e.val; omega
  | ⟨1, _⟩ => show d.val = 0 + d.val; omega

theorem gateHi_at (v4 : Vec Ideal S256x512 .bf16) (e d : Fin 256) : hiHalf v4 (ix2 e d) = gateHi v4 e d := by
  unfold hiHalf
  rw [shapeCast_self]
  refine extractStridedSlice_apply ![0, 256] v4 slices_S256x512_o0_256_S256x256 (ix2 e d) (ix2 e (hi d)) ?_
  intro a
  match a with
  | ⟨0, _⟩ => show e.val = 0 + e.val; omega
  | ⟨1, _⟩ => show 256 + d.val = 256 + d.val; rfl

/-- The bias row laid down the rows, read at (p, e). -/
theorem bias_at (v6 : Vec Ideal S1x256 .f32) (p : Fin 2048) (e : Fin 256) : biasDown v6 (ix2 p e) = biasOf v6 e := by
  unfold biasDown
  rw [shapeCast_self]
  refine broadcastTo_apply v6 broadcasts_S1x256_S2048x256 (ix2 p e) (ix2 (0 : Fin 1) e) ?_
  intro a
  match a with
  | ⟨0, _⟩ => show (0 : Nat) = if (1 : Nat) = 1 then 0 else p.val; rw [if_pos rfl]
  | ⟨1, _⟩ => show e.val = if (256 : Nat) = 1 then 0 else e.val; rw [if_neg (by decide)]

/-- The second payload, over the recalled rows. -/
theorem pay5_eq (v0 : Vec Ideal S2048x256 .f32) (v2 : Vec Ideal S512x256 .bf16) (v4 : Vec Ideal S256x512 .bf16) (v6 : Vec Ideal S1x256 .f32) :
    k0_pay5 v0 v2 v4 v6 = addf (k0_pay1 v0) (mulf (logistic (addf (addf
        (matmul dot_S2048x256_S256x256_S2048x256_1_1_0_0_n_n none (k0_pay3 v0) (loHalf v4) (constant (F := Ideal) S2048x256 .f32 0x00000000#32))
        (matmul dot_S2048x256_S256x256_S2048x256_1_1_0_0_n_n none (truncf .bf16 (recalledOf v0 v2) bitsLt_bf16_f32) (hiHalf v4)
          (constant (F := Ideal) S2048x256 .f32 0x00000000#32)))
        (biasDown v6))) (recalledOf v0 v2)) := rfl

/-- THE FUSED ROWS: the second store at (p, e). -/
theorem pay5_at (v0 : Vec Ideal S2048x256 .f32) (v2 : Vec Ideal S512x256 .bf16) (v4 : Vec Ideal S256x512 .bf16) (v6 : Vec Ideal S1x256 .f32)
    (p : Fin 2048) (e : Fin 256) :
    k0_pay5 v0 v2 v4 v6 (ix2 p e)
      = fused (gateLo v4) (gateHi v4) (biasOf v6) (rowOf v0 p) (recall (bankOf v2) (shareByRecip (score (bankOf v2) (rowOf v0 p)))) e := by
  have h1 : matmul dot_S2048x256_S256x256_S2048x256_1_1_0_0_n_n none (k0_pay3 v0) (loHalf v4)
        (constant (F := Ideal) S2048x256 .f32 0x00000000#32) (ix2 p e) = ∑ d : Fin 256, rowOf v0 p d * gateLo v4 e d := by
    refine (Cert.DotRows.matmul_zero_apply dot_S2048x256_S256x256_S2048x256_1_1_0_0_n_n_wf none (k0_pay3 v0) (loHalf v4) p e).trans ?_
    refine Finset.sum_congr rfl fun d _ => ?_
    rw [pay3_at, gateLo_at]
  have h2 : matmul dot_S2048x256_S256x256_S2048x256_1_1_0_0_n_n none (truncf .bf16 (recalledOf v0 v2) bitsLt_bf16_f32) (hiHalf v4)
        (constant (F := Ideal) S2048x256 .f32 0x00000000#32) (ix2 p e)
        = ∑ d : Fin 256, recall (bankOf v2) (shareByRecip (score (bankOf v2) (rowOf v0 p))) d * gateHi v4 e d := by
    refine (Cert.DotRows.matmul_zero_apply dot_S2048x256_S256x256_S2048x256_1_1_0_0_n_n_wf none
      (truncf .bf16 (recalledOf v0 v2) bitsLt_bf16_f32) (hiHalf v4) p e).trans ?_
    refine Finset.sum_congr rfl fun d _ => ?_
    rw [truncf_apply, recalledOf_at, gateHi_at]
  rw [pay5_eq, addf_apply, mulf_apply, logistic_apply, addf_apply, addf_apply, h1, h2, bias_at, recalledOf_at, pay1_eq]
  rfl

end Cert.KernelIdeal.Body

end
-- ==== Proof.KernelRun.lean ====
/-
  The kernel's run, read: what its two result arrays hold after every weakly fair execution.

  The region works on the input flattened to 131072 rows, the bank and the gate's matrix narrowed (the identity at the
  extended reals), and the bias as one row. Grid point `t` is handed rows `2048·t … 2048·t + 2047` and the bank, the
  matrix and the bias whole, and writes back the same rows of the two flat results; the 64 points' blocks tile the flat
  results, so each ends as one function of the flat arrays. The two reshapes after the region lay the flat results
  out over (b, s, ·).
-/
import proofs.«408257_j83872121357090_3_alg».proof.Proof.Gen.KernelIdeal.Frame
import proofs.«408257_j83872121357090_3_alg».proof.Proof.KernelBody
import Idealize.ShloMosaic.Lib.Pipeline.Value
import Idealize.ShloMosaic.Lib.StableHlo.Run
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Body Idealize.ShloMosaic.ValueIdx Cert.GatedRecall

variable (m : (ℓ : Loc nD τ sig) → Buf (Elt Ideal) ℓ) (ρ : Dev nD → PrngReg)

theorem hz : (![0, 0] : Fin 2 → Nat) = fun _ => 0 := funext fun a => by fin_cases a <;> rfl

/-! ## The arrays the region works on -/

/-- The flat rows, the bank, the gate's matrix and the bias row as the region finds them. -/
abbrev rowsArr (c : Dev nD) : Vec Ideal S131072x256 .f32 := V m c main_v0
abbrev bankArr (c : Dev nD) : Vec Ideal S512x256 .bf16 := V m c main_v1
abbrev gateArr (c : Dev nD) : Vec Ideal S256x512 .bf16 := V m c main_v2
abbrev biasArr (c : Dev nD) : Vec Ideal S1x256 .f32 := V m c main_v3

/-- The arguments. -/
abbrev xArg (c : Dev nD) : Vec Ideal S32x4096x256 .f32 := m ((c : Thread nD τ).loc main_arg0)
abbrev memArg (c : Dev nD) : Vec Ideal S512x256 .f32 := m ((c : Thread nD τ).loc main_arg1)
abbrev wgArg (c : Dev nD) : Vec Ideal S256x512 .f32 := m ((c : Thread nD τ).loc main_arg2)
abbrev bgArg (c : Dev nD) : Vec Ideal S256 .f32 := m ((c : Thread nD τ).loc main_arg3)

theorem rowsArr_eq (c : Dev nD) : rowsArr m c = shapeCast S131072x256 (xArg m c) shapeCasts_S32x4096x256_S131072x256 := by
  show StableHlo.after hostOps0 (fun b => m (c, b)) (Proc.devRef .tc main_v0) = _
  after_results
  rfl

theorem bankArr_eq (c : Dev nD) : (bankArr m c : S512x256.Idx → EReal) = memArg m c := by
  show StableHlo.after hostOps0 (fun b => m (c, b)) (Proc.devRef .tc main_v1) = _
  after_results
  rfl

theorem gateArr_eq (c : Dev nD) : (gateArr m c : S256x512.Idx → EReal) = wgArg m c := by
  show StableHlo.after hostOps0 (fun b => m (c, b)) (Proc.devRef .tc main_v2) = _
  after_results
  rfl

theorem biasArr_eq (c : Dev nD) : biasArr m c = shapeCast S1x256 (bgArg m c) shapeCasts_S256_S1x256 := by
  show StableHlo.after hostOps0 (fun b => m (c, b)) (Proc.devRef .tc main_v3) = _
  after_results
  rfl

/-! ## The blocks -/

/-- The printed index maps over the grid: the rows' windows move one block a point, the others stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The input windows' blocks at a point. -/
abbrev xblk (c : Dev nD) (t : Fin cfg0.N) : Vec Ideal S2048x256 .f32 := iblk m c 0 t
abbrev bankblk (c : Dev nD) (t : Fin cfg0.N) : Vec Ideal S512x256 .bf16 := iblk m c 1 t
abbrev gateblk (c : Dev nD) (t : Fin cfg0.N) : Vec Ideal S256x512 .bf16 := iblk m c 2 t
abbrev biasblk (c : Dev nD) (t : Fin cfg0.N) : Vec Ideal S1x256 .f32 := iblk m c 3 t

/-- Row `p` of point `t`'s block of rows is flat row `2048·t + p`: stated against any flat row `n` with that number. -/
theorem xblk_at (c : Dev nD) (t : Fin cfg0.N) (p : Fin 2048) (d : Fin 256) (n : Fin 131072) (hn : n.val = t.val * 2048 + p.val) :
    xblk m c t (ix2 p d) = rowsArr m c (ix2 n d) := by
  obtain ⟨e0, e1, -⟩ := idx_facts t
  unfold xblk iblk
  rw [View.read_apply]
  show V m c main_v0 _ = V m c main_v0 _
  congr 1
  funext a; apply Fin.ext
  match a with
  | ⟨0, _⟩ => show win0_0.index t (0 : Fin 2) * 2048 + 1 * p.val = n.val; rw [e0, hn]; omega
  | ⟨1, _⟩ => show win0_0.index t (1 : Fin 2) * 256 + 1 * d.val = d.val; rw [e1]; omega

/-- The bank's block is the bank. -/
theorem bankblk_eq (c : Dev nD) (t : Fin cfg0.N) : bankblk m c t = bankArr m c := by
  obtain ⟨-, -, e0, e1, -⟩ := idx_facts t
  funext y
  unfold bankblk iblk
  rw [View.read_apply]
  show V m c main_v1 _ = V m c main_v1 _
  congr 1
  funext a; apply Fin.ext
  match a with
  | ⟨0, _⟩ => show win0_1.index t (0 : Fin 2) * 512 + 1 * (y 0).val = (y 0).val; rw [e0]; omega
  | ⟨1, _⟩ => show win0_1.index t (1 : Fin 2) * 256 + 1 * (y 1).val = (y 1).val; rw [e1]; omega

/-- The matrix's block is the matrix. -/
theorem gateblk_eq (c : Dev nD) (t : Fin cfg0.N) : gateblk m c t = gateArr m c := by
  obtain ⟨-, -, -, -, e0, e1, -⟩ := idx_facts t
  funext y
  unfold gateblk iblk
  rw [View.read_apply]
  show V m c main_v2 _ = V m c main_v2 _
  congr 1
  funext a; apply Fin.ext
  match a with
  | ⟨0, _⟩ => show win0_2.index t (0 : Fin 2) * 256 + 1 * (y 0).val = (y 0).val; rw [e0]; omega
  | ⟨1, _⟩ => show win0_2.index t (1 : Fin 2) * 512 + 1 * (y 1).val = (y 1).val; rw [e1]; omega

/-- The bias row's block is the bias row. -/
theorem biasblk_eq (c : Dev nD) (t : Fin cfg0.N) : biasblk m c t = biasArr m c := by
  obtain ⟨-, -, -, -, -, -, e0, e1, -⟩ := idx_facts t
  funext y
  unfold biasblk iblk
  rw [View.read_apply]
  show V m c main_v3 _ = V m c main_v3 _
  congr 1
  funext a; apply Fin.ext
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

/-! ## A stored block is the block of the flat result -/

/-- The first store at `y` is the flat shares at `i`, when `i` is `y`'s place in the flat array: its row's entries are the
    block row's, its column `y`'s. -/
theorem shares_block (X : Vec Ideal S131072x256 .f32) (B : Vec Ideal S512x256 .bf16) (v0 : Vec Ideal S2048x256 .f32)
    (v2 : Vec Ideal S512x256 .bf16) (y : S2048x512.Idx) (i : S131072x512.Idx)
    (hrow : ∀ d : Fin 256, v0 (ix2 (y 0) d) = X (ix2 (i 0) d)) (hbank : v2 = B) (hcol : (i 1).val = (y 1).val) :
    k0_pay4 v0 v2 y = sharesFlat X B i := by
  obtain ⟨p, q, rfl⟩ : ∃ (p : Fin 2048) (q : Fin 512), y = ix2 p q := ⟨y 0, y 1, eq_ix2 y⟩
  subst hbank
  rw [pay4_at]
  unfold sharesFlat
  have hq : (i 1 : Fin 512) = q := Fin.ext hcol
  have hr : rowOf v0 p = fun d => X (ix2 (i 0) d) := funext fun d => hrow d
  show shareByRecip (score (bankOf v2) (rowOf v0 p)) q = shareByRecip (score (bankRows v2) (fun d => X (ix2 (i 0) d))) (i 1)
  rw [hq, hr]

/-- The second store at `y` is the flat fused rows at `i`, likewise. -/
theorem fused_block (X : Vec Ideal S131072x256 .f32) (B : Vec Ideal S512x256 .bf16) (W : Vec Ideal S256x512 .bf16) (bb : Vec Ideal S1x256 .f32)
    (v0 : Vec Ideal S2048x256 .f32) (v2 : Vec Ideal S512x256 .bf16) (v4 : Vec Ideal S256x512 .bf16) (v6 : Vec Ideal S1x256 .f32)
    (y : S2048x256.Idx) (i : S131072x256.Idx)
    (hrow : ∀ d : Fin 256, v0 (ix2 (y 0) d) = X (ix2 (i 0) d)) (hbank : v2 = B) (hgate : v4 = W) (hbias : v6 = bb)
    (hcol : (i 1).val = (y 1).val) :
    k0_pay5 v0 v2 v4 v6 y = fusedFlat X B W bb i := by
  obtain ⟨p, e, rfl⟩ : ∃ (p : Fin 2048) (e : Fin 256), y = ix2 p e := ⟨y 0, y 1, eq_ix2 y⟩
  subst hbank hgate hbias
  rw [pay5_at]
  unfold fusedFlat
  have he : (i 1 : Fin 256) = e := Fin.ext hcol
  have hr : rowOf v0 p = fun d => X (ix2 (i 0) d) := funext fun d => hrow d
  show fused (gateLo v4) (gateHi v4) (biasOf v6) (rowOf v0 p) (recall (bankOf v2) (shareByRecip (score (bankOf v2) (rowOf v0 p)))) e
    = fused (gateLeft v4) (gateRight v4) (fun e => v6 (ix2 (0 : Fin 1) e)) (fun d => X (ix2 (i 0) d))
        (recall (bankRows v2) (shareByRecip (score (bankRows v2) (fun d => X (ix2 (i 0) d))))) (i 1)
  rw [he, hr]

/-! ## What each point writes back -/

/-- Point `t` writes back block `t` of the flat shares. -/
theorem flushed5_eq (c : Dev nD) (t : Fin cfg0.N) :
    (dats m 0 c).flushed 5 t = ((cfg0.win 5).blk t).view.read (Elt Ideal) (sharesFlat (rowsArr m c) (bankArr m c)) := by
  show (cfg0.win 5).cut (grid0.coords t) ((dats m 0 c).after 5 t) = _
  rw [after0_5]
  unfold out0_5
  rw [View.canon_unit_zero hz]
  simp only [View.ld_unit_zero (S := S2048x256) hz, View.ld_unit_zero (S := S512x256) hz]
  obtain ⟨-, -, -, -, -, -, -, -, -, -, e0, e1⟩ := idx_facts t
  funext y
  refine shares_block (rowsArr m c) (bankArr m c) (xblk m c t) (bankblk m c t) y (((cfg0.win 5).blk t).view.emb y) (fun d => ?_)
    (bankblk_eq m c t) ?_
  · refine xblk_at m c t (y 0) d _ ?_
    show win0_5.index t (0 : Fin 2) * 2048 + 1 * (y 0).val = t.val * 2048 + (y 0).val
    rw [e0]; omega
  · show win0_5.index t (1 : Fin 2) * 512 + 1 * (y 1).val = (y 1).val
    rw [e1]; omega

/-- Point `t` writes back block `t` of the flat fused rows. -/
theorem flushed4_eq (c : Dev nD) (t : Fin cfg0.N) :
    (dats m 0 c).flushed 4 t
      = ((cfg0.win 4).blk t).view.read (Elt Ideal) (fusedFlat (rowsArr m c) (bankArr m c) (gateArr m c) (biasArr m c)) := by
  show (cfg0.win 4).cut (grid0.coords t) ((dats m 0 c).after 4 t) = _
  rw [after0_4]
  unfold out0_4
  rw [View.canon_unit_zero hz]
  simp only [View.ld_unit_zero (S := S2048x256) hz, View.ld_unit_zero (S := S512x256) hz, View.ld_unit_zero (S := S256x512) hz,
    View.ld_unit_zero (S := S1x256) hz]
  obtain ⟨-, -, -, -, -, -, -, -, e0, e1, -⟩ := idx_facts t
  funext y
  refine fused_block (rowsArr m c) (bankArr m c) (gateArr m c) (biasArr m c) (xblk m c t) (bankblk m c t) (gateblk m c t) (biasblk m c t)
    y (((cfg0.win 4).blk t).view.emb y) (fun d => ?_) (bankblk_eq m c t) (gateblk_eq m c t) (biasblk_eq m c t) ?_
  · refine xblk_at m c t (y 0) d _ ?_
    show win0_4.index t (0 : Fin 2) * 2048 + 1 * (y 0).val = t.val * 2048 + (y 0).val
    rw [e0]; omega
  · show win0_4.index t (1 : Fin 2) * 256 + 1 * (y 1).val = (y 1).val
    rw [e1]; omega

/-! ## The blocks tile the flat results -/

theorem mem_blk5 (t : Fin cfg0.N) (i : S131072x512.Idx) :
    i ∈ ((cfg0.win 5).blk t).view.set ↔ ∀ a : Fin 2, win0_5.index t a * S2048x512.size a ≤ (i a).val
      ∧ (i a).val < win0_5.index t a * S2048x512.size a + S2048x512.size a := by
  show i ∈ ((View.whole main_v4_1).slice (win0_5.rect t)).set ↔ _
  rw [View.set_slice_whole, Rect.mem_set_unit]
  exact Iff.rfl

theorem mem_blk4 (t : Fin cfg0.N) (i : S131072x256.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v4_0).slice (win0_4.rect t)).set ↔ _
  rw [View.set_slice_whole, Rect.mem_set_unit]
  exact Iff.rfl

/-- The point whose block holds flat row `r`. -/
abbrev pointOf (r : Nat) (hr : r < 131072) : Fin cfg0.N := ⟨r / 2048, by rw [show cfg0.N = 64 from N_0]; omega⟩

/-- The flat shares after the run. -/
theorem final5 (c : Dev nD) : (dats m 0 c).arrAt 5 cfg0.N = sharesFlat (rowsArr m c) (bankArr m c) :=
  (dats m 0 c).arrAt_eq_of_cover 5 (sharesFlat (rowsArr m c) (bankArr m c)) (fun t _ => flushed5_eq m c t) fun i => by
    have h0 : (i 0).val < 131072 := (i 0).isLt
    have h1 : (i 1).val < 512 := (i 1).isLt
    refine ⟨pointOf (i 0).val h0, flush0_5 _, ?_⟩
    rw [mem_blk5]
    obtain ⟨-, -, -, -, -, -, -, -, -, -, e0, e1⟩ := idx_facts (pointOf (i 0).val h0)
    intro a
    match a with
    | ⟨0, _⟩ =>
      show win0_5.index (pointOf (i 0).val h0) (0 : Fin 2) * 2048 ≤ (i 0).val
        ∧ (i 0).val < win0_5.index (pointOf (i 0).val h0) (0 : Fin 2) * 2048 + 2048
      rw [e0]; show (i 0).val / 2048 * 2048 ≤ (i 0).val ∧ (i 0).val < (i 0).val / 2048 * 2048 + 2048; omega
    | ⟨1, _⟩ =>
      show win0_5.index (pointOf (i 0).val h0) (1 : Fin 2) * 512 ≤ (i 1).val
        ∧ (i 1).val < win0_5.index (pointOf (i 0).val h0) (1 : Fin 2) * 512 + 512
      rw [e1]; omega

/-- The flat fused rows after the run. -/
theorem final4 (c : Dev nD) :
    (dats m 0 c).arrAt 4 cfg0.N = fusedFlat (rowsArr m c) (bankArr m c) (gateArr m c) (biasArr m c) :=
  (dats m 0 c).arrAt_eq_of_cover 4 (fusedFlat (rowsArr m c) (bankArr m c) (gateArr m c) (biasArr m c)) (fun t _ => flushed4_eq m c t) fun i => by
    have h0 : (i 0).val < 131072 := (i 0).isLt
    have h1 : (i 1).val < 256 := (i 1).isLt
    refine ⟨pointOf (i 0).val h0, flush0_4 _, ?_⟩
    rw [mem_blk4]
    obtain ⟨-, -, -, -, -, -, -, -, e0, e1, -⟩ := idx_facts (pointOf (i 0).val h0)
    intro a
    match a with
    | ⟨0, _⟩ =>
      show win0_4.index (pointOf (i 0).val h0) (0 : Fin 2) * 2048 ≤ (i 0).val
        ∧ (i 0).val < win0_4.index (pointOf (i 0).val h0) (0 : Fin 2) * 2048 + 2048
      rw [e0]; show (i 0).val / 2048 * 2048 ≤ (i 0).val ∧ (i 0).val < (i 0).val / 2048 * 2048 + 2048; omega
    | ⟨1, _⟩ =>
      show win0_4.index (pointOf (i 0).val h0) (1 : Fin 2) * 256 ≤ (i 1).val
        ∧ (i 1).val < win0_4.index (pointOf (i 0).val h0) (1 : Fin 2) * 256 + 256
      rw [e1]; omega

/-! ## The reshapes after the region, and the run -/

/-- The first result after the reshape: the fused rows over (b, s, ·), the share taken by the total's reciprocal. -/
theorem tail5 (c : Dev nD) :
    Pipeline.afterTail₀ cfgs (dats m) 0 (V0 m) [hostOps1] c main_v5
      = fusedWith shareByRecip (xArg m c) (memArg m c) (wgArg m c) (bgArg m c) := by
  unfold Pipeline.afterTail₀
  show StableHlo.after hostOps1 _ (Proc.devRef .tc main_v5) = _
  after_results
  rw [(Pipeline.withArrays_arr spec0 launch0.win.arr_inj c _ _ 4).trans (final4 m c), rowsArr_eq, biasArr_eq]
  have hb : (bankArr m c : S512x256.Idx → EReal) = memArg m c := bankArr_eq m c
  have hg : (gateArr m c : S256x512.Idx → EReal) = wgArg m c := gateArr_eq m c
  exact (congrArg₂ (fun B W => shapeCast S32x4096x256 (fusedFlat (shapeCast S131072x256 (xArg m c) shapeCasts_S32x4096x256_S131072x256) B W
      (shapeCast S1x256 (bgArg m c) shapeCasts_S256_S1x256)) shapeCasts_S131072x256_S32x4096x256) hb hg).trans
    (unflatten_fused (xArg m c) (memArg m c) (wgArg m c) (bgArg m c) _ _ _)

/-- The second result after the reshape: the shares over (b, s, ·). -/
theorem tail6 (c : Dev nD) :
    Pipeline.afterTail₀ cfgs (dats m) 0 (V0 m) [hostOps1] c main_v6 = sharesWith shareByRecip (xArg m c) (memArg m c) := by
  unfold Pipeline.afterTail₀
  show StableHlo.after hostOps1 _ (Proc.devRef .tc main_v6) = _
  after_results
  rw [(Pipeline.withArrays_arr spec0 launch0.win.arr_inj c _ _ 5).trans (final5 m c), rowsArr_eq]
  have hb : (bankArr m c : S512x256.Idx → EReal) = memArg m c := bankArr_eq m c
  exact (congrArg (fun B => shapeCast S32x4096x512 (sharesFlat (shapeCast S131072x256 (xArg m c) shapeCasts_S32x4096x256_S131072x256) B)
      shapeCasts_S131072x512_S32x4096x512) hb).trans
    (unflatten_shares (xArg m c) (memArg m c) _ _)

/-- THE RUN: every weakly fair execution ends with the two results at the fused rows and the shares of the arguments,
    the share taken by the total's reciprocal, and the arguments unchanged. -/
theorem run : θ_run defs (onTc (τ := τ) (main (F := Ideal))) ⟨m, fun _ => 0, ρ⟩ fun r => ∀ c : Dev nD,
      r.2.mem ((c.tc : Thread nD τ).loc main_v5) = fusedWith shareByRecip (xArg m c) (memArg m c) (wgArg m c) (bgArg m c)
      ∧ r.2.mem ((c.tc : Thread nD τ).loc main_v6) = sharesWith shareByRecip (xArg m c) (memArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail5 m c),
      ((h c).2 main_v6 (Pipeline.mem_restRefs_of main_v6 (by decide) (by decide))).trans (tail6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Arrays

end
-- ==== Proof.RefRun.lean ====
/-
  The reference's two results, read one operation at a time, are the arrays of shares and of fused rows.

  At (b, s, j) the reference's first product is the score of row (b, s) against bank row j; its greatest over j, folded
  from `−∞` and then compared with `−∞` once more, is the row's peak; the exponential of the difference is the mass;
  their sum from zero is the total; the quotient is the share. The second product recalls a row from the bank with the
  shares; two more products with the halves of the gate's matrix and the bias make the drive; and
  `1 / (1 + exp (−drive))` is the logistic function of it.
-/
import proofs.«408257_j83872121357090_3_alg».proof.Proof.Gen.ReferenceIdeal.Read
import proofs.«408257_j83872121357090_3_alg».proof.Proof.ArrayMath
import Idealize.ShloMosaic.PureOps.Ideal.Laws

noncomputable section

open scoped BigOperators

namespace Cert.ReferenceIdeal.Bridge

open Cert.ReferenceIdeal Cert.ReferenceIdeal.Gen Cert.ReferenceIdeal.Read Idealize.ShloMosaic Idealize.ShloMosaic.ValueIdx Cert.GatedRecall

variable (x0 : (⟨S32x4096x256, .f32⟩ : BufTy).Contents (Elt Ideal)) (x1 : (⟨S512x256, .f32⟩ : BufTy).Contents (Elt Ideal))
  (x2 : (⟨S256x512, .f32⟩ : BufTy).Contents (Elt Ideal)) (x3 : (⟨S256, .f32⟩ : BufTy).Contents (Elt Ideal))

/-- The scores. -/
theorem score_at (b : Fin 32) (s : Fin 4096) (j : Fin 512) :
    val_main_v0 (F := Ideal) x0 x1 (ix3 b s j) = score (bankRows x1) (rowAt x0 b s) j := by
  rw [val_main_v0_apply]
  unfold score
  refine Finset.sum_congr rfl fun k _ => ?_
  have el : lidx_main_v0 (ix3 b s j) k = ix3 b s k :=
    funext fun a => Fin.ext (by match a with | ⟨0, _⟩ => rfl | ⟨1, _⟩ => rfl | ⟨2, _⟩ => rfl)
  have er : ridx_main_v0 (ix3 b s j) k = ix2 j k :=
    funext fun a => Fin.ext (by match a with | ⟨0, _⟩ => rfl | ⟨1, _⟩ => rfl)
  rw [el, er]

/-- The rows' last axis can be reduced away. -/
theorem reduces_last : S32x4096x512.Reduces [2] S32x4096 := by decide

/-- The reduced index (b, s) with coordinate `k` put back is (b, s, k). -/
theorem lift_last (b : Fin 32) (s : Fin 4096) (k : Fin (S32x4096x512.size 2)) :
    reduces_last.lift (ix2 b s) k = ix3 b s (⟨k.val, k.isLt⟩ : Fin 512) := by
  funext c; apply Fin.ext
  fin_cases c <;> rfl

/-- The peak: the fold from `−∞`, and once more the greater of `−∞` and it. -/
theorem peak_at (b : Fin 32) (s : Fin 4096) :
    val_main_v3 (F := Ideal) x0 x1 (ix2 b s) = peak (score (bankRows x1) (rowAt x0 b s)) := by
  have h1 : val_main_v1 (F := Ideal) x0 x1 (ix2 b s) = peak (score (bankRows x1) (rowAt x0 b s)) := by
    unfold val_main_v1
    refine (Host.reduce_eq_fold_single (FloatOps.maximumf (F := Ideal) (φ := .f32)) (val_main_v0 (F := Ideal) x0 x1 : FVec Ideal S32x4096x512 .f32)
      (val_main_cst (F := Ideal) : FVec Ideal S_ .f32) reducesTo_S32x4096x512_S32x4096_d2 reduces_last h_S_ (ix2 b s)).trans ?_
    unfold peak
    have hf : (val_main_v0 (F := Ideal) x0 x1 ∘ reduces_last.lift (ix2 b s)) = fun j : Fin 512 => score (bankRows x1) (rowAt x0 b s) j :=
      funext fun k => (congrArg (val_main_v0 (F := Ideal) x0 x1) (lift_last b s k)).trans (score_at x0 x1 b s _)
    exact congrArg (fun f => Finset.fold max negInf f (Finset.univ : Finset (Fin 512))) hf
  have h2 : val_main_v2 (F := Ideal) (ix2 b s) = negInf := by rw [val_main_v2_apply]; rfl
  rw [val_main_v3_apply, h1, h2]
  show max negInf (peak (score (bankRows x1) (rowAt x0 b s))) = _
  refine max_eq_right ?_
  unfold peak
  rw [Finset.le_fold_max]
  exact Or.inl le_rfl

/-- The masses. -/
theorem mass_at (b : Fin 32) (s : Fin 4096) (j : Fin 512) :
    val_main_v7 (F := Ideal) x0 x1 (ix3 b s j) = mass (score (bankRows x1) (rowAt x0 b s)) j := by
  have e : idx_main_v4 (idx_main_v5 (ix3 b s j)) = ix2 b s :=
    funext fun a => Fin.ext (by match a with | ⟨0, _⟩ => rfl | ⟨1, _⟩ => rfl)
  rw [val_main_v7_apply, val_main_v6_apply, score_at, val_main_v5_apply, val_main_v4_apply, e, peak_at]
  rfl

/-- The totals. -/
theorem total_at (b : Fin 32) (s : Fin 4096) :
    val_main_v8 (F := Ideal) x0 x1 (ix2 b s) = total (score (bankRows x1) (rowAt x0 b s)) := by
  rw [val_main_v8_apply, val_main_cst_1_apply]
  unfold total
  have hz : FloatOps.ofBits (F := Ideal) .f32 0x00000000#32 = 0 := Ideal.ofBits_zero_f32
  rw [hz, zero_add]
  refine Finset.sum_congr rfl fun k _ => ?_
  have e : idx_main_v8 (ix2 b s) k = ix3 b s k :=
    funext fun a => Fin.ext (by match a with | ⟨0, _⟩ => rfl | ⟨1, _⟩ => rfl | ⟨2, _⟩ => rfl)
  rw [e, mass_at]

/-- THE FIRST RESULT at (b, s, j): the share. -/
theorem share_at (b : Fin 32) (s : Fin 4096) (j : Fin 512) :
    val_main_v11 (F := Ideal) x0 x1 (ix3 b s j) = share (score (bankRows x1) (rowAt x0 b s)) j := by
  have e : idx_main_v9 (idx_main_v10 (ix3 b s j)) = ix2 b s :=
    funext fun a => Fin.ext (by match a with | ⟨0, _⟩ => rfl | ⟨1, _⟩ => rfl)
  rw [val_main_v11_apply, mass_at, val_main_v10_apply, val_main_v9_apply, e, total_at]
  rfl

theorem shares_eq : val_main_v11 (F := Ideal) x0 x1 = sharesWith share x0 x1 := by
  funext i
  obtain ⟨b, s, j, rfl⟩ : ∃ (b : Fin 32) (s : Fin 4096) (j : Fin 512), i = ix3 b s j := ⟨i 0, i 1, i 2, eq_ix3 i⟩
  exact share_at x0 x1 b s j

/-- The recalled rows. -/
theorem recall_at (b : Fin 32) (s : Fin 4096) (d : Fin 256) :
    val_main_v12 (F := Ideal) x0 x1 (ix3 b s d) = recall (bankRows x1) (share (score (bankRows x1) (rowAt x0 b s))) d := by
  rw [val_main_v12_apply]
  unfold recall
  refine Finset.sum_congr rfl fun k _ => ?_
  have el : lidx_main_v12 (ix3 b s d) k = ix3 b s k :=
    funext fun a => Fin.ext (by match a with | ⟨0, _⟩ => rfl | ⟨1, _⟩ => rfl | ⟨2, _⟩ => rfl)
  have er : ridx_main_v12 (ix3 b s d) k = ix2 k d :=
    funext fun a => Fin.ext (by match a with | ⟨0, _⟩ => rfl | ⟨1, _⟩ => rfl)
  rw [el, er, share_at]

/-- The row against the left half of the gate's matrix. -/
theorem left_at (b : Fin 32) (s : Fin 4096) (e : Fin 256) :
    val_main_v15 (F := Ideal) x0 x2 (ix3 b s e) = ∑ d : Fin 256, rowAt x0 b s d * gateLeft x2 e d := by
  rw [val_main_v15_apply]
  refine Finset.sum_congr rfl fun k _ => ?_
  have el : lidx_main_v15 (ix3 b s e) k = ix3 b s k :=
    funext fun a => Fin.ext (by match a with | ⟨0, _⟩ => rfl | ⟨1, _⟩ => rfl | ⟨2, _⟩ => rfl)
  have er : idx_main_v13 (ridx_main_v15 (ix3 b s e) k) = ix2 e (lo k) :=
    funext fun a => Fin.ext (by match a with | ⟨0, _⟩ => rfl | ⟨1, _⟩ => rfl)
  rw [el, val_main_v13_apply, er]

/-- The recalled row against the right half. -/
theorem right_at (b : Fin 32) (s : Fin 4096) (e : Fin 256) :
    val_main_v16 (F := Ideal) x0 x1 x2 (ix3 b s e)
      = ∑ d : Fin 256, recall (bankRows x1) (share (score (bankRows x1) (rowAt x0 b s))) d * gateRight x2 e d := by
  rw [val_main_v16_apply]
  refine Finset.sum_congr rfl fun k _ => ?_
  have el : lidx_main_v16 (ix3 b s e) k = ix3 b s k :=
    funext fun a => Fin.ext (by match a with | ⟨0, _⟩ => rfl | ⟨1, _⟩ => rfl | ⟨2, _⟩ => rfl)
  have er : idx_main_v14 (ridx_main_v16 (ix3 b s e) k) = ix2 e (hi k) :=
    funext fun a => Fin.ext (by match a with | ⟨0, _⟩ => rfl | ⟨1, _⟩ => rfl)
  rw [el, recall_at, val_main_v14_apply, er]

/-- The bias laid over every row. -/
theorem bias_at (b : Fin 32) (s : Fin 4096) (e : Fin 256) : val_main_v19 (F := Ideal) x3 (ix3 b s e) = biasAt x3 e := by
  have h : idx_main_v18 (idx_main_v19 (ix3 b s e)) = ix1 e :=
    funext fun a => Fin.ext (by match a with | ⟨0, _⟩ => rfl)
  rw [val_main_v19_apply, val_main_v18_apply, h]

/-- THE SECOND RESULT at (b, s, e): the fused row's entry. -/
theorem fused_at (b : Fin 32) (s : Fin 4096) (e : Fin 256) :
    val_main_v28 (F := Ideal) x0 x1 x2 x3 (ix3 b s e)
      = fused (gateLeft x2) (gateRight x2) (biasAt x3) (rowAt x0 b s)
          (recall (bankRows x1) (share (score (bankRows x1) (rowAt x0 b s)))) e := by
  have h25 : val_main_v25 (F := Ideal) (ix3 b s e) = oneW := by rw [val_main_v25_apply]; rfl
  have h23 : val_main_v23 (F := Ideal) (ix3 b s e) = oneW := by rw [val_main_v23_apply]; rfl
  rw [val_main_v28_apply, val_main_v27_apply, val_main_v26_apply, h25, val_main_v24_apply, h23, val_main_v22_apply,
    val_main_v21_apply, val_main_v20_apply, val_main_v17_apply, left_at, right_at, bias_at, recall_at, oneW_eq]
  rfl

theorem fused_eq : val_main_v28 (F := Ideal) x0 x1 x2 x3 = fusedWith share x0 x1 x2 x3 := by
  funext i
  obtain ⟨b, s, e, rfl⟩ : ∃ (b : Fin 32) (s : Fin 4096) (e : Fin 256), i = ix3 b s e := ⟨i 0, i 1, i 2, eq_ix3 i⟩
  exact fused_at x0 x1 x2 x3 b s e

end Cert.ReferenceIdeal.Bridge

end
-- ==== Proof.Finite.lean ====
/-
  The precondition, read back: every entry of the input and of the bank is a real number.

  The precondition is the conjunction, over the four arguments, of "every entry's absolute value is below `+∞`". An
  extended real whose absolute value `max x (−x)` is below `+∞` is neither `+∞` nor `−∞`.
-/
import proofs.«408257_j83872121357090_3_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Decode

open Cert.Pre_finite_inputs Idealize.ShloMosaic Idealize.ShloMosaic.ValueIdx

instance : Subsingleton S_.Idx := ⟨fun a b => funext fun d => d.elim0⟩

/-- An extended real whose absolute value compares below the word of `+∞` is real. -/
theorem real_of_abs_lt (x : EReal) (h : Ideal.cmp .olt (max x (-x)) (Ideal.ofBits .f32 0x7F800000#32) = 1#1) : x ≠ ⊥ ∧ x ≠ ⊤ := by
  have htop : Ideal.ofBits .f32 0x7F800000#32 = ⊤ := by simp [Ideal.ofBits, Ideal.ieee]
  rw [htop] at h
  have hlt : max x (-x) < ⊤ := by
    by_contra hn
    unfold Ideal.cmp at h
    simp [hn] at h
  induction x using EReal.rec with
  | bot => simp at hlt
  | top => simp at hlt
  | coe r => exact ⟨EReal.coe_ne_bot r, EReal.coe_ne_top r⟩

/-- One argument's conjunct: if "all entries have absolute value below `+∞`" came out true, every entry is real. -/
theorem all_real {s : Shape} {axes : List (Fin s.rank)} (x : FVec Ideal s .f32) (hb : S_.BroadcastsInDim s (![] : Fin 0 → Fin s.rank))
    (hr : s.ReducesTo axes S_) (hS : 0 < S_.numel)
    (e : Host.reduce IntOp.andi (cmpf .olt (Host.absf x) (broadcastInDim s ![] hb (constant (F := Ideal) S_ .f32 0x7F800000#32)))
      (constantI S_ 1 1#1) hr hS ix0 = 1#1) (i : s.Idx) : x i ≠ ⊥ ∧ x i ≠ ⊤ :=
  real_of_abs_lt (x i) (Host.reduce_andi_all _ _ hr hS ix0 e i)

/-- THE PRECONDITION GIVES: the input's and the bank's entries are real. -/
theorem real_of_pre (a0 : FVec Ideal S32x4096x256 .f32) (a1 : FVec Ideal S512x256 .f32) (a2 : FVec Ideal S256x512 .f32) (a3 : FVec Ideal S256 .f32)
    (h : fn (F := Ideal) a0 a1 a2 a3 = fun _ => 1#1) :
    (∀ i, a0 i ≠ ⊥ ∧ a0 i ≠ ⊤) ∧ (∀ i, a1 i ≠ ⊥ ∧ a1 i ≠ ⊤) := by
  have h0 := congrFun h ix0
  dsimp only [fn, fn_part1] at h0
  change IntOp.andi (IntOp.andi (IntOp.andi _ _) _) _ = 1#1 at h0
  obtain ⟨h012, -⟩ := IntOp.andi_eq_one.mp h0
  obtain ⟨h01, -⟩ := IntOp.andi_eq_one.mp h012
  obtain ⟨hx, hm⟩ := IntOp.andi_eq_one.mp h01
  exact ⟨all_real a0 _ _ _ hx, all_real a1 _ _ _ hm⟩

end Cert.Pre_finite_inputs.Decode

end
-- ==== Proof.lean ====
/-
  The kernel attends over a fixed bank and fuses the recalled row through a gate; the reference does the same with
  jnp. On the extended reals both compute, for every row `x` of the input: the scores `s j = ∑ d, x d · bank j d`, the
  masses `exp (s j − max s)`, the shares `mass / total`, the recalled row `∑ j, share j · bank j`, and
  `x + logistic (x · W₁ᵀ + recalled · W₂ᵀ + b) · recalled`. They differ in one place: the kernel multiplies a mass by
  the reciprocal of the total where the reference divides by the total. The two agree once the total is not zero, which
  finite inputs give: the scores are then real, so every mass is positive. The kernel's logistic function is the
  reference's `1 / (1 + exp (−z))`; products, sums and maxima are the same functions on both sides, and the kernel's
  narrowings to bf16 are identities here.

  The kernel's two frames are the generated ones; the reference's frame is its generated run with the results dropped;
  nothing was rewritten by the idealization, so there is nothing to preserve.
-/
import proofs.«408257_j83872121357090_3_alg».proof.Defs
import proofs.«408257_j83872121357090_3_alg».proof.Proof.Gen.Kernel
import proofs.«408257_j83872121357090_3_alg».proof.Proof.Gen.Kernel.Frame
import proofs.«408257_j83872121357090_3_alg».proof.Proof.Gen.KernelIdeal
import proofs.«408257_j83872121357090_3_alg».proof.Proof.Gen.KernelIdeal.Frame
import proofs.«408257_j83872121357090_3_alg».proof.Proof.Gen.ReferenceIdeal
import proofs.«408257_j83872121357090_3_alg».proof.Proof.Gen.ReferenceIdeal.Run
import proofs.«408257_j83872121357090_3_alg».proof.Proof.Gen.ReferenceIdeal.Read
import proofs.«408257_j83872121357090_3_alg».proof.Proof.Gen.Pre_finite_inputs
import proofs.«408257_j83872121357090_3_alg».proof.Proof.ArrayMath
import proofs.«408257_j83872121357090_3_alg».proof.Proof.KernelRun
import proofs.«408257_j83872121357090_3_alg».proof.Proof.RefRun
import proofs.«408257_j83872121357090_3_alg».proof.Proof.Finite
import Idealize.ShloMosaic.Adequacy
import Idealize.ShloMosaic.Init

noncomputable section

namespace Cert.Proof

open Idealize.ShloMosaic Idealize.ShloMosaic.TcCoe Idealize.SL.Sem Cert.GatedRecall

theorem frame_kernel : Cert.frame_Kernel := fun m ρ _ => Cert.Kernel.Gen.frame m ρ

theorem frame_ideal : Cert.frame_KernelIdeal := fun m ρ _ => Cert.KernelIdeal.Gen.frame m ρ

/-- The reference's frame: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the fused rows and the shares of the arguments, the share a quotient: the reference by its
    operations read one by one, the kernel because on finite inputs its product with the reciprocal is that quotient. -/
theorem algebraic : Cert.algebraic_KernelIdeal_ReferenceIdeal := by
  intro m ρ m' ρ' hpre hagree
  refine ⟨fun c => fusedWith share (Cert.KernelIdeal.Arrays.xArg m c) (Cert.KernelIdeal.Arrays.memArg m c)
      (Cert.KernelIdeal.Arrays.wgArg m c) (Cert.KernelIdeal.Arrays.bgArg m c),
    fun c => sharesWith share (Cert.KernelIdeal.Arrays.xArg m c) (Cert.KernelIdeal.Arrays.memArg m c), ?_, ?_⟩
  · refine (θ_run Cert.KernelIdeal.defs _ _).mono (fun _ h c => ?_) (Cert.KernelIdeal.Arrays.run m ρ)
    obtain ⟨hx, hm⟩ := Cert.Pre_finite_inputs.Decode.real_of_pre _ _ _ _ (hpre c)
    exact ⟨(h c).1.trans (fusedWith_recip _ _ _ _ hx hm), (h c).2.1.trans (sharesWith_recip _ _ hx hm), (h c).2.2⟩
  · refine (θ_run Cert.ReferenceIdeal.defs _ _).mono (fun _ h c => ?_) (Cert.ReferenceIdeal.Value.run (F := Ideal) m' ρ')
    refine ⟨(h c).1.trans ?_, (h c).2.1.trans ?_, (h c).2.2⟩
    · rw [Cert.ReferenceIdeal.Read.val_main_v28_eq, Cert.ReferenceIdeal.Bridge.fused_eq, (hagree c).1, (hagree c).2.1,
        (hagree c).2.2.1, (hagree c).2.2.2]
    · rw [Cert.ReferenceIdeal.Read.val_main_v11_eq, Cert.ReferenceIdeal.Bridge.shares_eq, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
